-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S128x64 : Shape := ⟨2, ![128, 64]⟩
abbrev S_ : Shape := ⟨0, ![]⟩
abbrev S1x1600000 : Shape := ⟨2, ![1, 1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1600000 : S_.BroadcastsInDim S1600000 (![] : Fin 0 → Fin S1600000.rank)
  reducesTo_S1600000_S_d0 : S1600000.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  slices_S2x1600000_S1x1600000_0_0 : S2x1600000.Slices ![0, 0] S1x1600000
  shapeCasts_S1x1600000_S1600000 : S1x1600000.ShapeCasts S1600000

variable [Facts]

def fn_part4 {F : FTy → Type} [FloatOps F] (main_v63 : IVec S_ 1) (main_v67 : IVec S1600000 1) (main_v68 : IVec S1x1600000 32) : IVec S_ 1 :=
  let main_v69 : IVec S1600000 32 := shapeCast S1600000 main_v68 shapeCasts_S1x1600000_S1600000
  let main_c_25 : IVec S_ 32 := constantI S_ 32 100000#32
  let main_v70 : IVec S1600000 32 := broadcastInDim S1600000 ![] bcast_S_S1600000 main_c_25
  let main_v71 : IVec S1600000 1 := cmpi .slt main_v69 main_v70
  let main_v72 : IVec S1600000 1 := andi main_v67 main_v71
  let main_c_26 : IVec S_ 1 := constantI S_ 1 1#1
  let main_v73 : IVec S_ 1 := (fun x v => Host.reduce IntOp.andi x v reducesTo_S1600000_S_d0 h_S_) main_v72 main_c_26
  let main_v74 : IVec S_ 1 := andi main_v63 main_v73
  main_v74

def fn_part3 {F : FTy → Type} [FloatOps F] (main_arg1 : IVec S2x1600000 32) (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : IVec S1x1600000 32 := (extractStridedSlice S1x1600000 ![0, 0] · slices_S2x1600000_S1x1600000_0_0) main_arg1
  let main_v65 : IVec S1600000 32 := shapeCast S1600000 main_v64 shapeCasts_S1x1600000_S1600000
  let main_c_24 : IVec S_ 32 := constantI S_ 32 0#32
  let main_v66 : IVec S1600000 32 := broadcastInDim S1600000 ![] bcast_S_S1600000 main_c_24
  let main_v67 : IVec S1600000 1 := cmpi .sge main_v65 main_v66
  let main_v68 : IVec S1x1600000 32 := (extractStridedSlice S1x1600000 ![0, 0] · slices_S2x1600000_S1x1600000_0_0) main_arg1
  fn_part4 (F := F) main_v63 main_v67 main_v68

def fn_part2 {F : FTy → Type} [FloatOps F] (main_arg1 : IVec S2x1600000 32) (main_arg8 : FVec F S128x64 .f32) (main_arg9 : FVec F S64 .f32) (main_arg10 : FVec F S64 .f32) (main_arg11 : FVec F S64 .f32) (main_arg12 : FVec F S64x64 .f32) (main_arg13 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_v48 main_v49 main_v50

def fn_part1 {F : FTy → Type} [FloatOps F] (main_arg1 : IVec S2x1600000 32) (main_arg5 : FVec F S64 .f32) (main_arg6 : FVec F S64x64 .f32) (main_arg7 : FVec F S64 .f32) (main_arg8 : FVec F S128x64 .f32) (main_arg9 : FVec F S64 .f32) (main_arg10 : FVec F S64 .f32) (main_arg11 : FVec F S64 .f32) (main_arg12 : FVec F S64x64 .f32) (main_arg13 : FVec F S64 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x64 .f32) (main_arg1 : IVec S2x1600000 32) (main_arg2 : FVec F S1600000x32 .f32) (main_arg3 : FVec F S1600000 .f32) (main_arg4 : FVec F S96x64 .f32) (main_arg5 : FVec F S64 .f32) (main_arg6 : FVec F S64x64 .f32) (main_arg7 : FVec F S64 .f32) (main_arg8 : FVec F S128x64 .f32) (main_arg9 : FVec F S64 .f32) (main_arg10 : FVec F S64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S96x64 .f32 := Host.absf main_arg4
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S32x64 : Shape := ⟨2, ![32, 64]⟩
abbrev S1x64 : Shape := ⟨2, ![1, 64]⟩
abbrev S10000x64 : Shape := ⟨2, ![10000, 64]⟩
abbrev S10000x32 : Shape := ⟨2, ![10000, 32]⟩
abbrev S10000x1 : Shape := ⟨2, ![10000, 1]⟩
abbrev S10000 : Shape := ⟨1, ![10000]⟩

abbrev nBuf : Space → Nat
  | .hbm => 58
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S1600000, .f32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1, .i32⟩
  | .hbm, ⟨27, _⟩ => ⟨S_, .i32⟩
  | .hbm, ⟨28, _⟩ => ⟨S1600000x1, .i32⟩
  | .hbm, ⟨29, _⟩ => ⟨S1600000x1, .i1⟩
  | .hbm, ⟨30, _⟩ => ⟨S1x1, .i32⟩
  | .hbm, ⟨31, _⟩ => ⟨S1600000x1, .i32⟩
  | .hbm, ⟨32, _⟩ => ⟨S1600000x1, .i1⟩
  | .hbm, ⟨33, _⟩ => ⟨S1600000x1, .i1⟩
  | .hbm, ⟨34, _⟩ => ⟨S_, .i1⟩
  | .hbm, ⟨35, _⟩ => ⟨S1600000, .i1⟩
  | .hbm, ⟨36, _⟩ => ⟨S1600000x64, .f32⟩
  | .hbm, ⟨37, _⟩ => ⟨S1600000x64, .i1⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S64x64, .f32⟩
  | .hbm, ⟨42, _⟩ => ⟨S32x64, .f32⟩
  | .hbm, ⟨43, _⟩ => ⟨S1600000x1, .f32⟩
  | .hbm, ⟨44, _⟩ => ⟨S1x64, .f32⟩
  | .hbm, ⟨45, _⟩ => ⟨S1x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x32, .f32⟩
  | .local _ .vmem, ⟨3, _⟩ => ⟨S10000x32, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S32x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S96x64_S64x64_0_0 : S96x64.Slices ![0, 0] S64x64
  slices_S96x64_S32x64_64_0 : S96x64.Slices ![64, 0] S32x64
  shapeCasts_S1600000_S1600000x1 : S1600000.ShapeCasts S1600000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  reduces_S10000x64_S10000 : S10000x64.Reduces [1] S10000
  shapeCasts_S10000_S10000x1 : S10000.ShapeCasts S10000x1
  gather_S100000x64_S1600000x1_S1600000x64_1_0_n_n_0_1_164_wf : GatherDims.WF S100000x64 S1600000x1 S1600000x64 [1] [0] [] [0] [] 1 ![1, 64]
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .f32 = 32 ∨ (Rect.block (s := S1600000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S1600000x32.size a
  hwx0_1 : ∀ i : grid0.Coords, EltTy.bits .f32 = 32 ∨ (Rect.block (s := S1600000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S1600000x1.size a
  hwx0_2 : ∀ i : grid0.Coords, EltTy.bits .f32 = 32 ∨ (Rect.block (s := S1600000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S1600000x64.size a
  hwx0_8 : ∀ i : grid0.Coords, EltTy.bits .f32 = 32 ∨ (Rect.block (s := S1600000x64) S10000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S100000x64.size a
  hwx1_9 : ∀ i : grid1.Coords, EltTy.bits .f32 = 32 ∨ (Rect.block (s := S100000x64) S10000x64.size (cc1_transform_9 i) (hinb1_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v4) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S1600000, .f32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x96, .f32⟩
  | .hbm, ⟨28, _⟩ => ⟨S1600000x64, .f32⟩
  | .hbm, ⟨29, _⟩ => ⟨S1x64, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S1600000x64, .f32⟩
  | .hbm, ⟨34, _⟩ => ⟨S1600000x64, .i1⟩
  | .hbm, ⟨35, _⟩ => ⟨S_, .f32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | .hbm, ⟨43, _⟩ => ⟨S1600000x1, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x128, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .i1⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelHost.lean ====
/-
  What each pallas region finds in its operand arrays when it is entered, as functions of the launch memory.

  Region 0 (the edge perceptron) is entered after the index rows are cut out of edge_index, the source rows are taken,
  the first weight matrix is cut into its upper 64 and lower 32 rows and the vectors are laid out as columns or rows.
  Region 1 (the node update) is entered after the messages region 0 wrote are summed into their destination rows,
  the second weight matrix is cut in two and the vectors are laid out as rows. No host operation and no region writes
  an argument, so an argument read at either entry is the launch memory's.
-/
import proofs.«429976_j35399120454035_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's entry -/

/-- The destination-index vector: row 1 of edge_index. -/
def dstWords (x1 : IVec S2x1600000 32) : IVec S1600000 32 :=
  shapeCast S1600000 (extractStridedSlice S1x1600000 ![1, 0] x1 slices_S2x1600000_S1x1600000_1_0) shapeCasts_S1x1600000_S1600000

theorem e0_arg2 (c : Dev nD) : (W3 m ρ c (Proc.devRef .tc main_arg2) : S1600000x32.Idx → F .f32) = m ((c.tc : Thread nD τ).loc main_arg2) := by
  dsimp only [W3, W2, W1, W0, hostOps0_2, hostOps0_1, hostOps0]; after_results <;> rfl

theorem e0_arg6 (c : Dev nD) : (W3 m ρ c (Proc.devRef .tc main_arg6) : S64x64.Idx → F .f32) = m ((c.tc : Thread nD τ).loc main_arg6) := by
  dsimp only [W3, W2, W1, W0, hostOps0_2, hostOps0_1, hostOps0]; after_results <;> rfl

theorem e0_v5 (c : Dev nD) : (W3 m ρ c (Proc.devRef .tc main_v5) : S64x64.Idx → F .f32)
    = extractStridedSlice S64x64 ![0, 0] (m ((c.tc : Thread nD τ).loc main_arg4)) slices_S96x64_S64x64_0_0 := by
  dsimp only [W3, W2, W1, W0, hostOps0_2, hostOps0_1, hostOps0]; after_results <;> rfl

theorem e0_v6 (c : Dev nD) : (W3 m ρ c (Proc.devRef .tc main_v6) : S32x64.Idx → F .f32)
    = extractStridedSlice S32x64 ![64, 0] (m ((c.tc : Thread nD τ).loc main_arg4)) slices_S96x64_S32x64_64_0 := by
  dsimp only [W3, W2, W1, W0, hostOps0_2, hostOps0_1, hostOps0]; after_results <;> rfl

theorem e0_v7 (c : Dev nD) : (W3 m ρ c (Proc.devRef .tc main_v7) : S1600000x1.Idx → F .f32)
    = shapeCast S1600000x1 (m ((c.tc : Thread nD τ).loc main_arg3)) shapeCasts_S1600000_S1600000x1 := by
  dsimp only [W3, W2, W1, W0, hostOps0_2, hostOps0_1, hostOps0]; after_results <;> rfl

theorem e0_v8 (c : Dev nD) : (W3 m ρ c (Proc.devRef .tc main_v8) : S1x64.Idx → F .f32)
    = shapeCast S1x64 (m ((c.tc : Thread nD τ).loc main_arg5)) shapeCasts_S64_S1x64 := by
  dsimp only [W3, W2, W1, W0, hostOps0_2, hostOps0_1, hostOps0]; after_results <;> rfl

theorem e0_v9 (c : Dev nD) : (W3 m ρ c (Proc.devRef .tc main_v9) : S1x64.Idx → F .f32)
    = shapeCast S1x64 (m ((c.tc : Thread nD τ).loc main_arg7)) shapeCasts_S64_S1x64 := by
  dsimp only [W3, W2, W1, W0, hostOps0_2, hostOps0_1, hostOps0]; after_results <;> rfl

/-- The destination indices as region 0 leaves them (it does not touch them). -/
theorem e0_v3 (c : Dev nD) : (W3 m ρ c (Proc.devRef .tc main_v3) : S1600000.Idx → BitVec 32)
    = dstWords (m ((c.tc : Thread nD τ).loc main_arg1)) := by
  dsimp only [W3, W2, W1, W0, hostOps0_2, hostOps0_1, hostOps0]; after_results <;> rfl

theorem e0_arg0 (c : Dev nD) : (W3 m ρ c (Proc.devRef .tc main_arg0) : S100000x64.Idx → F .f32) = m ((c.tc : Thread nD τ).loc main_arg0) := by
  dsimp only [W3, W2, W1, W0, hostOps0_2, hostOps0_1, hostOps0]; after_results <;> rfl

theorem e0_arg8 (c : Dev nD) : (W3 m ρ c (Proc.devRef .tc main_arg8) : S128x64.Idx → F .f32) = m ((c.tc : Thread nD τ).loc main_arg8) := by
  dsimp only [W3, W2, W1, W0, hostOps0_2, hostOps0_1, hostOps0]; after_results <;> rfl

/-! ## Region 1's entry -/

/-- An argument no host operation and no region writes is, at region 1's entry, what region 0's entry had. -/
theorem e1_arg0 (c : Dev nD) : (W5 m ρ c (Proc.devRef .tc main_arg0) : S100000x64.Idx → F .f32) = m ((c.tc : Thread nD τ).loc main_arg0) := by
  have h : W5 m ρ c (Proc.devRef .tc main_arg0) = W4 m ρ c (Proc.devRef .tc main_arg0) := by
    dsimp only [W5, hostOps1]; after_results <;> rfl
  rw [h, W4_of_ne m ρ c main_arg0 (by decide)]; exact e0_arg0 m ρ c

theorem e1_arg12 (c : Dev nD) : (W5 m ρ c (Proc.devRef .tc main_arg12) : S64x64.Idx → F .f32) = m ((c.tc : Thread nD τ).loc main_arg12) := by
  have h : W5 m ρ c (Proc.devRef .tc main_arg12) = W4 m ρ c (Proc.devRef .tc main_arg12) := by
    dsimp only [W5, hostOps1]; after_results <;> rfl
  rw [h, W4_of_ne m ρ c main_arg12 (by decide)]
  dsimp only [W3, W2, W1, W0, hostOps0_2, hostOps0_1, hostOps0]; after_results <;> rfl

/-- The summed messages: a zero table, the destination indices as a column, and the array region 0 wrote. -/
theorem e1_v13 (c : Dev nD) : (W5 m ρ c (Proc.devRef .tc main_v13) : S100000x64.Idx → F .f32)
    = Host.scatterAdd scatter_S100000x64_S1600000x1_S1600000x64_1_0_0_1
        (broadcastInDim S100000x64 ![] bcast_S_S100000x64 (constant (F := F) S_ .f32 0x00000000#32))
        (broadcastInDim S1600000x1 ![0] bcast_S1600000_S1600000x1_0 (dstWords (m ((c.tc : Thread nD τ).loc main_arg1))))
        ((dat0 (V3 m ρ) c).arrAt 8 cfg0.N) := by
  have h : (W5 m ρ c (Proc.devRef .tc main_v13) : S100000x64.Idx → F .f32)
      = Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 (W4 m ρ c (Proc.devRef .tc main_v3)))
          (W4 m ρ c (Proc.devRef .tc main_v10)) := by
    dsimp only [W5, hostOps1]; after_results <;> rfl
  rw [h, W4_of_ne m ρ c main_v3 (by decide), e0_v3 m ρ c]
  exact congrArg _ (W4_arr m ρ c 8)

theorem e1_v14 (c : Dev nD) : (W5 m ρ c (Proc.devRef .tc main_v14) : S64x64.Idx → F .f32)
    = extractStridedSlice S64x64 ![0, 0] (m ((c.tc : Thread nD τ).loc main_arg8)) slices_S128x64_S64x64_0_0 := by
  have h : (W5 m ρ c (Proc.devRef .tc main_v14) : S64x64.Idx → F .f32)
      = extractStridedSlice S64x64 ![0, 0] (W4 m ρ c (Proc.devRef .tc main_arg8)) slices_S128x64_S64x64_0_0 := by
    dsimp only [W5, hostOps1]; after_results <;> rfl
  rw [h, W4_of_ne m ρ c main_arg8 (by decide), e0_arg8 m ρ c]

theorem e1_v15 (c : Dev nD) : (W5 m ρ c (Proc.devRef .tc main_v15) : S64x64.Idx → F .f32)
    = extractStridedSlice S64x64 ![64, 0] (m ((c.tc : Thread nD τ).loc main_arg8)) slices_S128x64_S64x64_64_0 := by
  have h : (W5 m ρ c (Proc.devRef .tc main_v15) : S64x64.Idx → F .f32)
      = extractStridedSlice S64x64 ![64, 0] (W4 m ρ c (Proc.devRef .tc main_arg8)) slices_S128x64_S64x64_64_0 := by
    dsimp only [W5, hostOps1]; after_results <;> rfl
  rw [h, W4_of_ne m ρ c main_arg8 (by decide), e0_arg8 m ρ c]

/-- The bias and scale vectors laid out as rows; their arguments are written by nothing. -/
theorem e1_v16 (c : Dev nD) : (W5 m ρ c (Proc.devRef .tc main_v16) : S1x64.Idx → F .f32)
    = shapeCast S1x64 (m ((c.tc : Thread nD τ).loc main_arg9)) shapeCasts_S64_S1x64 := by
  have h : (W5 m ρ c (Proc.devRef .tc main_v16) : S1x64.Idx → F .f32)
      = shapeCast S1x64 (W4 m ρ c (Proc.devRef .tc main_arg9)) shapeCasts_S64_S1x64 := by
    dsimp only [W5, hostOps1]; after_results <;> rfl
  have h0 : (W3 m ρ c (Proc.devRef .tc main_arg9) : S64.Idx → F .f32) = m ((c.tc : Thread nD τ).loc main_arg9) := by
    dsimp only [W3, W2, W1, W0, hostOps0_2, hostOps0_1, hostOps0]; after_results <;> rfl
  rw [h, W4_of_ne m ρ c main_arg9 (by decide), h0]

theorem e1_v17 (c : Dev nD) : (W5 m ρ c (Proc.devRef .tc main_v17) : S1x64.Idx → F .f32)
    = shapeCast S1x64 (m ((c.tc : Thread nD τ).loc main_arg10)) shapeCasts_S64_S1x64 := by
  have h : (W5 m ρ c (Proc.devRef .tc main_v17) : S1x64.Idx → F .f32)
      = shapeCast S1x64 (W4 m ρ c (Proc.devRef .tc main_arg10)) shapeCasts_S64_S1x64 := by
    dsimp only [W5, hostOps1]; after_results <;> rfl
  have h0 : (W3 m ρ c (Proc.devRef .tc main_arg10) : S64.Idx → F .f32) = m ((c.tc : Thread nD τ).loc main_arg10) := by
    dsimp only [W3, W2, W1, W0, hostOps0_2, hostOps0_1, hostOps0]; after_results <;> rfl
  rw [h, W4_of_ne m ρ c main_arg10 (by decide), h0]

theorem e1_v18 (c : Dev nD) : (W5 m ρ c (Proc.devRef .tc main_v18) : S1x64.Idx → F .f32)
    = shapeCast S1x64 (m ((c.tc : Thread nD τ).loc main_arg11)) shapeCasts_S64_S1x64 := by
  have h : (W5 m ρ c (Proc.devRef .tc main_v18) : S1x64.Idx → F .f32)
      = shapeCast S1x64 (W4 m ρ c (Proc.devRef .tc main_arg11)) shapeCasts_S64_S1x64 := by
    dsimp only [W5, hostOps1]; after_results <;> rfl
  have h0 : (W3 m ρ c (Proc.devRef .tc main_arg11) : S64.Idx → F .f32) = m ((c.tc : Thread nD τ).loc main_arg11) := by
    dsimp only [W3, W2, W1, W0, hostOps0_2, hostOps0_1, hostOps0]; after_results <;> rfl
  rw [h, W4_of_ne m ρ c main_arg11 (by decide), h0]

theorem e1_v19 (c : Dev nD) : (W5 m ρ c (Proc.devRef .tc main_v19) : S1x64.Idx → F .f32)
    = shapeCast S1x64 (m ((c.tc : Thread nD τ).loc main_arg13)) shapeCasts_S64_S1x64 := by
  have h : (W5 m ρ c (Proc.devRef .tc main_v19) : S1x64.Idx → F .f32)
      = shapeCast S1x64 (W4 m ρ c (Proc.devRef .tc main_arg13)) shapeCasts_S64_S1x64 := by
    dsimp only [W5, hostOps1]; after_results <;> rfl
  have h0 : (W3 m ρ c (Proc.devRef .tc main_arg13) : S64.Idx → F .f32) = m ((c.tc : Thread nD τ).loc main_arg13) := by
    dsimp only [W3, W2, W1, W0, hostOps0_2, hostOps0_1, hostOps0]; after_results <;> rfl
  rw [h, W4_of_ne m ρ c main_arg13 (by decide), h0]

end Cert.KernelIdeal.Host

end
-- ==== Proof.SrcPre.lean ====
import proofs.«429976_j35399120454035_2_alg».proof.Defs
import proofs.«429976_j35399120454035_2_alg».proof.Proof.Gen.KernelIdeal.Launch
import proofs.«429976_j35399120454035_2_alg».proof.Proof.Gen.Pre_finite_inputs
import Idealize.ShloMosaic.Lib.ReduceAll
import Idealize.ShloMosaic.Lib.Affine
import Idealize.ShloMosaic.Lib.ValueIdx

noncomputable section

/-! ## The source-index vector, and what the precondition says of it

Both programs read row 0 of the `[2, 1600000]` edge-index array as a vector of 1600000 words: the slice
`[0:1, 0:1600000]` reshaped to rank one. The precondition's last conjunct compares every word of that same vector,
read as a signed integer, with 0 and with 100000: each word names a row of the node-feature table. -/

namespace Cert.Pre_finite_inputs.SrcIndex

open Cert.Pre_finite_inputs Cert.Pre_finite_inputs.Gen
open Idealize.ShloMosaic Idealize.ShloMosaic.ValueIdx

/-- The scalar shape has one index. -/
instance subsingleton_scalar_idx : Subsingleton S_.Idx := ⟨fun a b => funext fun d => d.elim0⟩

/-- Row 0 of the edge-index array as a vector, in the predicate's own vocabulary. -/
def preWords (x1 : IVec S2x1600000 32) : IVec S1600000 32 :=
  shapeCast S1600000 (extractStridedSlice S1x1600000 ![0, 0] x1 slices_S2x1600000_S1x1600000_0_0) shapeCasts_S1x1600000_S1600000

/-- The tail of the predicate (its last 32 operations) is a conjunction whose last conjunct is the `all` over the
    edges of "0 ≤ word" and "word < 100000". Only the right component is kept at each conjunction, so the conjuncts
    about the float arguments are never opened. -/
theorem part3_inRange {F : FTy → Type} [FloatOps F] (a1 : IVec S2x1600000 32) (a12 : FVec F S64x64 .f32) (a13 : FVec F S64 .f32)
    (v48 : IVec S_ 1) (v49 v50 : FVec F S64 .f32)
    (h : fn_part3 (F := F) a1 a12 a13 v48 v49 v50 ix0 = 1#1) (e : Fin 1600000) :
    0 ≤ (preWords a1 (ix1 e)).toInt ∧ (preWords a1 (ix1 e)).toInt < 100000 := by
  unfold fn_part3 fn_part4 at h
  dsimp only at h
  have hall := (IntOp.andi_eq_one.1 h).2
  have hpt := Host.reduce_andi_all _ _ _ _ _ hall (ix1 e)
  obtain ⟨hge, hlt⟩ := IntOp.andi_eq_one.1 hpt
  have hge' := IntOp.cmpi_sge.1 hge
  have hlt' := IntOp.cmpi_slt.1 hlt
  exact ⟨hge', hlt'⟩

end Cert.Pre_finite_inputs.SrcIndex

namespace Cert.KernelIdeal.SrcIndex

open Cert.KernelIdeal Cert.KernelIdeal.Gen
open Idealize.ShloMosaic Idealize.ShloMosaic.ValueIdx Idealize.ShloMosaic.TcCoe Idealize.SL.Sem

/-- Row 0 of the edge-index array as a vector: the slice `[0:1, 0:1600000]` reshaped to `[1600000]`, the two operations
    by which the program computes its source-index vector. -/
def srcWords (x1 : IVec S2x1600000 32) : IVec S1600000 32 :=
  shapeCast S1600000 (extractStridedSlice S1x1600000 ![0, 0] x1 slices_S2x1600000_S1x1600000_0_0) shapeCasts_S1x1600000_S1600000

/-- The predicate's vector and the program's are the same function of the array: the two vocabularies name the same
    literal shapes. -/
theorem srcWords_eq_pre (x1 : IVec S2x1600000 32) : srcWords x1 = Cert.Pre_finite_inputs.SrcIndex.preWords x1 := rfl

/-- Under the precondition every source index, read as a signed integer, names a row of the node-feature table. -/
theorem src_inRange (m : (ℓ : Loc nD τ sig) → Buf (Elt Ideal) ℓ) (h : Cert.Pre_KernelIdeal m) (c : Dev nD) (e : Fin 1600000) :
    0 ≤ (srcWords (m ((c.tc : Thread nD τ).loc main_arg1)) (ix1 e)).toInt
      ∧ (srcWords (m ((c.tc : Thread nD τ).loc main_arg1)) (ix1 e)).toInt < 100000 := by
  have e0 := congrFun (h c) ValueIdx.ix0
  have e1 : Cert.Pre_finite_inputs.fn_part3 (F := Ideal) (m ((c.tc : Thread nD τ).loc main_arg1)) _ _ _ _ _ ValueIdx.ix0 = 1#1 := e0
  exact Cert.Pre_finite_inputs.SrcIndex.part3_inRange _ _ _ _ _ _ e1 e

end Cert.KernelIdeal.SrcIndex

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.SrcTake.lean ====
import proofs.«429976_j35399120454035_2_alg».proof.Proof.Gen.KernelIdeal.Launch
import proofs.«429976_j35399120454035_2_alg».proof.Proof.LibGatherRows
import Idealize.ShloMosaic.Lib.ReduceAll
import Idealize.ShloMosaic.Lib.Affine
import Idealize.ShloMosaic.Lib.ValueIdx
import Idealize.ShloMosaic.Lib.Pipeline.Value

noncomputable section

/-! ## The fill-mode row gather, read at an element whose index is in range

`take` in fill mode first wraps a negative index by adding the table's row count, then tests the wrapped index
against `[0, 99999]`, gathers the row the wrapped index names (the gather clamps it into the table), and finally keeps
the gathered element where the test held and puts a fixed word elsewhere. For an index already in `[0, 100000)` the
wrap is the identity, the test holds, the clamp does nothing: the result is the named row. -/

namespace Idealize.ShloMosaic

/-- A left fold by `and` over one-bit words, started at 1 and meeting only 1s, is 1. -/
theorem IntOp.foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := IntOp.andi_eq_one.2 ⟨rfl, h a (List.mem_cons_self ..)⟩
    rw [List.foldl_cons, ha]
    exact IntOp.foldl_andi_one f l fun n hn => h n (List.mem_cons_of_mem _ hn)

/-- A reduction by `and` from the initial bit 1 is 1 at `j` when every operand bit that reduces into `j` is 1. -/
theorem Host.reduce_andi_one_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine IntOp.foldl_andi_one x _ fun i hi => hx i ?_
  exact of_decide_eq_true (List.mem_filter.1 hi).2

end Idealize.ShloMosaic

namespace Cert.KernelIdeal.SrcIndex

open Cert.KernelIdeal Cert.KernelIdeal.Gen
open Idealize.ShloMosaic Idealize.ShloMosaic.ValueIdx

variable {F : FTy → Type} [FloatOps F]

/-- The index with a negative value wrapped: `idx + 100000` where `idx < 0`, else `idx`. -/
def wrapIdx (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The wrapped indices as a column of start indices. -/
def idxCol (idx : IVec S1600000 32) : IVec S1600000x1 32 :=
  broadcastInDim S1600000x1 ![0] bcast_S1600000_S1600000x1_0 (wrapIdx idx)

/-- The range test on the column: `0 ≤ index` and `index ≤ 99999`. -/
def inRangeCol (idx : IVec S1600000 32) : IVec S1600000x1 1 :=
  andi (cmpi .sge (idxCol idx) (broadcastInDim S1600000x1 ![] bcast_S_S1600000x1 (constantI S_ 32 0#32)))
    (cmpi .sle (idxCol idx)
      (broadcastInDim S1600000x1 ![0, 1] bcast_S1x1_S1600000x1_0_1 (broadcastInDim S1x1 ![1] bcast_S1_S1x1_1 (constantI S1 32 99999#32))))

/-- The range test per edge: the column's test reduced by `and` over its unit axis. -/
def inRange (idx : IVec S1600000 32) : IVec S1600000 1 :=
  Host.reduce IntOp.andi (inRangeCol idx) (constantI S_ 1 1#1) reducesTo_S1600000x1_S1600000_d1 h_S_

/-- The fill-mode gather of table rows: the 23 operations of the module-local `take` composed, `idx` the index vector and
    `x0` the table. -/
def takeRows (x0 : FVec F S100000x64 .f32) (idx : IVec S1600000 32) : FVec F S1600000x64 .f32 :=
  select (broadcastInDim S1600000x64 ![0] bcast_S1600000_S1600000x64_0 (inRange idx))
    (Host.gather gather_S100000x64_S1600000x1_S1600000x64_1_0_n_n_0_1_164 x0 (idxCol idx))
    (broadcastInDim S1600000x64 ![] bcast_S_S1600000x64 (constant S_ .f32 0x7FC00000#32))

/-- A nonnegative index is not wrapped. -/
theorem wrapIdx_apply_of_nonneg (idx : IVec S1600000 32) (i : S1600000.Idx) (h0 : 0 ≤ (idx i).toInt) : wrapIdx idx i = idx i := by
  show Scalar.select (IntOp.cmpi .slt (idx i) 0#32) (IntOp.addi (idx i) 100000#32) (idx i) = idx i
  have hc : ¬ IntOp.cmpi .slt (idx i) 0#32 = 1#1 := fun hc => by
    have := IntOp.cmpi_slt.1 hc
    have hz : (0#32 : BitVec 32).toInt = 0 := by decide
    omega
  exact if_neg hc

/-- The column at row `e` is the wrapped index of edge `e`. -/
theorem idxCol_apply (idx : IVec S1600000 32) (e : Fin 1600000) : idxCol idx (ix2 e (0 : Fin 1)) = wrapIdx idx (ix1 e) := by
  unfold idxCol
  exact broadcastInDim_apply _ bcast_S1600000_S1600000x1_0 (wrapIdx idx) (ix2 e (0 : Fin 1)) (ix1 e) (fun a => match a with
    | ⟨0, _⟩ => by show e.val = if (1600000 : Nat) = 1 then 0 else e.val; rw [if_neg (by decide)])

/-- The column's test holds at row `e` when the index of edge `e` is in `[0, 100000)`. -/
theorem inRangeCol_apply (idx : IVec S1600000 32) (e : Fin 1600000) (h0 : 0 ≤ (idx (ix1 e)).toInt) (h1 : (idx (ix1 e)).toInt < 100000) :
    inRangeCol idx (ix2 e (0 : Fin 1)) = 1#1 := by
  show IntOp.andi (IntOp.cmpi .sge (idxCol idx (ix2 e (0 : Fin 1))) 0#32) (IntOp.cmpi .sle (idxCol idx (ix2 e (0 : Fin 1))) 99999#32) = 1#1
  rw [idxCol_apply, wrapIdx_apply_of_nonneg idx _ h0]
  have hz : (0#32 : BitVec 32).toInt = 0 := by decide
  have hm : (99999#32 : BitVec 32).toInt = 99999 := by decide
  exact IntOp.andi_eq_one.2 ⟨IntOp.cmpi_sge.2 (by omega), IntOp.cmpi_sle.2 (by omega)⟩

/-- The only row of the column that reduces into edge `e` is row `e`. -/
theorem eq_of_drop (i : S1600000x1.Idx) (e : Fin 1600000) (h : reducesTo_S1600000x1_S1600000_d1.drop i = ix1 e) :
    i = ix2 e (0 : Fin 1) := by
  have hv := Shape.ReducesTo.drop_apply_val_of_eq reducesTo_S1600000x1_S1600000_d1 i 0 0
  rw [h] at hv
  funext a
  match a with
  | ⟨0, _⟩ => exact Fin.ext hv.symm
  | ⟨1, _⟩ => exact Fin.ext (Nat.lt_one_iff.1 (idx2_lt1 i))

/-- The per-edge test holds when the index of edge `e` is in `[0, 100000)`. -/
theorem inRange_apply (idx : IVec S1600000 32) (e : Fin 1600000) (h0 : 0 ≤ (idx (ix1 e)).toInt) (h1 : (idx (ix1 e)).toInt < 100000) :
    inRange idx (ix1 e) = 1#1 := by
  unfold inRange
  refine Host.reduce_andi_one_of_all _ _ _ _ _ rfl fun i hi => ?_
  rw [eq_of_drop i e hi]
  exact inRangeCol_apply idx e h0 h1

/-- At an edge whose index is in `[0, 100000)` the fill-mode gather reads the row the index names. -/
theorem takeRows_apply (x0 : FVec Ideal S100000x64 .f32) (idx : IVec S1600000 32) (e : Fin 1600000) (k : Fin 64)
    (h0 : 0 ≤ (idx (ix1 e)).toInt) (h1 : (idx (ix1 e)).toInt < 100000) :
    takeRows (F := Ideal) x0 idx (ix2 e k) = x0 (ix2 (⟨(idx (ix1 e)).toInt.toNat, by omega⟩ : Fin 100000) k) := by
  have hmask : broadcastInDim S1600000x64 ![0] bcast_S1600000_S1600000x64_0 (inRange idx) (ix2 e k) = 1#1 := by
    rw [broadcastInDim_apply _ bcast_S1600000_S1600000x64_0 (inRange idx) (ix2 e k) (ix1 e) (fun a => match a with
      | ⟨0, _⟩ => by show e.val = if (1600000 : Nat) = 1 then 0 else e.val; rw [if_neg (by decide)])]
    exact inRange_apply idx e h0 h1
  have hcol : idxCol idx (ix2 e (0 : Fin 1)) = idx (ix1 e) := by
    rw [idxCol_apply, wrapIdx_apply_of_nonneg idx _ h0]
  unfold takeRows
  rw [select_apply, hmask, select_one]
  rw [Cert.LibGatherRows.gather_rows_apply_of_inRange gather_S100000x64_S1600000x1_S1600000x64_1_0_n_n_0_1_164
    rfl rfl rfl rfl rfl rfl rfl x0 (idxCol idx) e k (by rw [hcol]; exact h0) (by rw [hcol]; exact h1)]
  exact congrArg x0 (congrArg (fun a => ix2 a k) (Fin.ext (congrArg (fun w : BitVec 32 => w.toInt.toNat) hcol)))

end Cert.KernelIdeal.SrcIndex

end
-- ==== Proof.KernelTake.lean ====
/-
  The gathered source rows as region 0 finds them: the take of the node-feature table at the source-index vector,
  both read out of the launch memory. The take is a module-local function of the program (23 operations over typed
  references); its result buffer is read back over any contents `W` of the buffers before it, and the two buffers it
  reads are then read back to the launch memory.
-/
import proofs.«429976_j35399120454035_2_alg».proof.Proof.KernelHost
import proofs.«429976_j35399120454035_2_alg».proof.Proof.SrcPre
import proofs.«429976_j35399120454035_2_alg».proof.Proof.SrcTake

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.KernelIdeal.SrcIndex

variable {F : FTy → Type} [FloatOps F]
variable (m : (ℓ : Loc nD τ sig) → Buf (Elt F) ℓ) (ρ : Dev nD → PrngReg)

/-- Contents carried to a typed reference's buffer type and back are the contents. -/
theorem ofBuf_toBuf {sig : RefSig} {T : BufTy} {Val : EltTy → Type} (t : TRef sig T) (v : T.Contents Val) : t.ofBuf (t.toBuf v) = v := by
  obtain ⟨r, rfl, _, _⟩ := t
  rfl

/-- At these three literal buffers the carried type IS the buffer's type: the transport is the identity. -/
theorem toBuf_v4 (v : (⟨S1600000x64, .f32⟩ : BufTy).Contents (Elt F)) : (TRef.of (T := ⟨S1600000x64, .f32⟩) main_v4).toBuf v = v := rfl
theorem ofBuf_v1 (v : (⟨S1600000, .i32⟩ : BufTy).Contents (Elt F)) : (TRef.of (T := ⟨S1600000, .i32⟩) main_v1).ofBuf v = v := rfl
theorem ofBuf_arg0 (v : (⟨S100000x64, .f32⟩ : BufTy).Contents (Elt F)) : (TRef.of (T := ⟨S100000x64, .f32⟩) main_arg0).ofBuf v = v := rfl

set_option maxHeartbeats 1000000 in
/-- The take's result over any contents before it: the operations' composition applied to the table's and the index
    vector's buffers. -/
theorem take_after (W : Valuation τ sig (Elt F)) :
    (after hostOps0_1 W (Proc.devRef .tc main_v4) : S1600000x64.Idx → F .f32)
      = takeRows ((TRef.of (T := ⟨S100000x64, .f32⟩) main_arg0).ofBuf (W (Proc.devRef .tc main_arg0)))
          ((TRef.of (T := ⟨S1600000, .i32⟩) main_v1).ofBuf (W (Proc.devRef .tc main_v1))) := by
  dsimp only [hostOps0_1]
  after_results
  simp only [ofBuf_toBuf]
  rw [toBuf_v4]
  rfl

/-- The source-index vector after the first four operations: row 0 of the edge-index array. -/
theorem w1_v1 (c : Dev nD) : (W1 m ρ c (Proc.devRef .tc main_v1) : S1600000.Idx → BitVec 32) = srcWords (m ((c.tc : Thread nD τ).loc main_arg1)) := by
  dsimp only [W1, W0, hostOps0]; after_results <;> rfl

theorem w1_arg0 (c : Dev nD) : (W1 m ρ c (Proc.devRef .tc main_arg0) : S100000x64.Idx → F .f32) = m ((c.tc : Thread nD τ).loc main_arg0) := by
  dsimp only [W1, W0, hostOps0]; after_results <;> rfl

/-- The five layout operations before region 0 do not write the take's result. -/
theorem w3_v4_of (W : Valuation τ sig (Elt F)) : after hostOps0_2 W (Proc.devRef .tc main_v4) = W (Proc.devRef .tc main_v4) := by
  dsimp only [hostOps0_2]; after_results <;> rfl

/-- Window 0's array at region 0's entry: the take of the node-feature table at row 0 of the edge-index array. -/
theorem e0_v4 (c : Dev nD) : (W3 m ρ c (Proc.devRef .tc main_v4) : S1600000x64.Idx → F .f32)
    = takeRows (m ((c.tc : Thread nD τ).loc main_arg0)) (srcWords (m ((c.tc : Thread nD τ).loc main_arg1))) := by
  refine (w3_v4_of (W2 m ρ c)).trans ?_
  refine (take_after (W1 m ρ c)).trans ?_
  rw [w1_v1 m ρ c, w1_arg0 m ρ c, ofBuf_v1, ofBuf_arg0]

end Cert.KernelIdeal.Host

end
-- ==== Proof.Spec.lean ====
/-
  What both programs compute, one output row at a time, on the extended reals.

  A message-passing layer: every edge e reads the feature row of its source node, passes it with the edge's
  attribute row through a two-layer perceptron (a leaky rectifier between the layers) and scales the result by the
  edge's weight; every node sums the messages of the edges that end in it; the node's own row and that sum go through
  a second perceptron with a layer normalisation (mean and variance over the 64 hidden units) in the middle.

  Each of these stages maps ROWS to ROWS: output row r depends on row r of the row-indexed operands and on the whole
  of the (small) weight operands. The definitions below are the row maps, written over plain functions of the
  coordinates; `msgArr` and `updArr` read the operands out of rank-2 arrays of any number of rows, so that one
  definition serves a block of rows and the whole array alike.
-/
import Idealize.ShloMosaic.PureOps.Ideal.Laws
import Idealize.ShloMosaic.Lib.ValueIdx

noncomputable section

namespace Cert.Spec

open Idealize.ShloMosaic Idealize.ShloMosaic.ValueIdx
open scoped BigOperators

/-- The leaky rectifier: x where 0 ≤ x, else the slope (the f32 nearest 0.1, the same word in both programs) times x. -/
def leaky (x : EReal) : EReal :=
  Scalar.select (FloatOps.cmpf (F := Ideal) (φ := .f32) .oge x (Ideal.ofBits .f32 0x00000000#32)) x
    (Ideal.ofBits .f32 0x3DCCCCCD#32 * x)

/-- An affine map fed by two rows: s·Wa + a·Wb + b, at output column j. -/
def lin2 {A B : ℕ} (s : Fin A → EReal) (a : Fin B → EReal) (Wa : Fin A → Fin 64 → EReal) (Wb : Fin B → Fin 64 → EReal)
    (b : Fin 64 → EReal) (j : Fin 64) : EReal :=
  (∑ k, s k * Wa k j) + (∑ k, a k * Wb k j) + b j

/-- An affine map fed by one row of 64: h·W + b, at output column j. -/
def lin1 (h : Fin 64 → EReal) (W : Fin 64 → Fin 64 → EReal) (b : Fin 64 → EReal) (j : Fin 64) : EReal :=
  (∑ k, h k * W k j) + b j

/-- One edge's message: the two-layer perceptron of (source row, attribute row), scaled by the edge's weight. -/
def edgeMsg (s : Fin 64 → EReal) (a : Fin 32 → EReal) (w : EReal) (Wa : Fin 64 → Fin 64 → EReal) (Wb : Fin 32 → Fin 64 → EReal)
    (b1 : Fin 64 → EReal) (W2 : Fin 64 → Fin 64 → EReal) (b2 : Fin 64 → EReal) (j : Fin 64) : EReal :=
  lin1 (fun k => leaky (lin2 s a Wa Wb b1 k)) W2 b2 j * w

/-- The mean of 64 numbers: their sum divided by 64 (the word of 64.0). -/
def mean64 (z : Fin 64 → EReal) : EReal := Ideal.div (∑ k, z k) (Ideal.ofBits .f32 0x42800000#32)

/-- Layer normalisation of a row of 64: (z − mean) · rsqrt(variance + ε) · g + b, ε the f32 nearest 1e-5. -/
def lnorm (z g b : Fin 64 → EReal) (j : Fin 64) : EReal :=
  (z j - mean64 z) * Ideal.rsqrt (mean64 (fun k => (z k - mean64 z) * (z k - mean64 z)) + Ideal.ofBits .f32 0x3727C5AC#32) * g j + b j

/-- One node's new row: the second perceptron of (own row, summed messages) with the normalisation inside. -/
def updOut (x agg : Fin 64 → EReal) (Ua Ub : Fin 64 → Fin 64 → EReal) (ub1 g b : Fin 64 → EReal)
    (U2 : Fin 64 → Fin 64 → EReal) (ub2 : Fin 64 → EReal) (j : Fin 64) : EReal :=
  lin1 (fun k => leaky (lnorm (lin2 x agg Ua Ub ub1) g b k)) U2 ub2 j

/-- Rows off … off + A − 1 of a matrix with R rows and 64 columns, as a function of (row, column). -/
def rowsFrom {R A : ℕ} (off : ℕ) (h : off + A ≤ R) (W : (⟨2, ![R, 64]⟩ : Shape).Idx → EReal) (k : Fin A) (j : Fin 64) : EReal :=
  W (ix2 (⟨off + k.val, by have := k.isLt; omega⟩ : Fin R) j)

/-- The message array at (e, j), operands read out of rank-2 arrays with E rows (weights whole, biases as one row). -/
def msgArr {E : ℕ} (src : (⟨2, ![E, 64]⟩ : Shape).Idx → EReal) (ea : (⟨2, ![E, 32]⟩ : Shape).Idx → EReal)
    (ew : (⟨2, ![E, 1]⟩ : Shape).Idx → EReal) (Wa : (⟨2, ![64, 64]⟩ : Shape).Idx → EReal) (Wb : (⟨2, ![32, 64]⟩ : Shape).Idx → EReal)
    (b1 : (⟨2, ![1, 64]⟩ : Shape).Idx → EReal) (W2 : (⟨2, ![64, 64]⟩ : Shape).Idx → EReal) (b2 : (⟨2, ![1, 64]⟩ : Shape).Idx → EReal)
    (e : Fin E) (j : Fin 64) : EReal :=
  edgeMsg (fun k => src (ix2 e k)) (fun k => ea (ix2 e k)) (ew (ix2 e (0 : Fin 1))) (fun k j => Wa (ix2 k j)) (fun k j => Wb (ix2 k j))
    (fun j => b1 (ix2 (0 : Fin 1) j)) (fun k j => W2 (ix2 k j)) (fun j => b2 (ix2 (0 : Fin 1) j)) j

/-- The updated node array at (n, j), operands read out of rank-2 arrays with N rows. -/
def updArr {N : ℕ} (x agg : (⟨2, ![N, 64]⟩ : Shape).Idx → EReal) (Ua Ub : (⟨2, ![64, 64]⟩ : Shape).Idx → EReal)
    (ub1 g b : (⟨2, ![1, 64]⟩ : Shape).Idx → EReal) (U2 : (⟨2, ![64, 64]⟩ : Shape).Idx → EReal) (ub2 : (⟨2, ![1, 64]⟩ : Shape).Idx → EReal)
    (n : Fin N) (j : Fin 64) : EReal :=
  updOut (fun k => x (ix2 n k)) (fun k => agg (ix2 n k)) (fun k j => Ua (ix2 k j)) (fun k j => Ub (ix2 k j))
    (fun j => ub1 (ix2 (0 : Fin 1) j)) (fun j => g (ix2 (0 : Fin 1) j)) (fun j => b (ix2 (0 : Fin 1) j)) (fun k j => U2 (ix2 k j))
    (fun j => ub2 (ix2 (0 : Fin 1) j)) j

/-- A sum over A + B terms is the sum of the first A and of the last B (the extended reals add commutatively and
    associatively; nothing here needs finiteness). -/
theorem sum_split {A B : ℕ} (f : Fin (A + B) → EReal) :
    ∑ k, f k = (∑ k : Fin A, f (Fin.castAdd B k)) + ∑ k : Fin B, f (Fin.natAdd A k) :=
  Fin.sum_univ_add f

end Cert.Spec

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.EdgeValue.lean ====
/-
  The value of the first pipelined region (the edge perceptron) as ONE array, on the extended reals.

  The region walks 160 grid points. At point t it reads rows 10000·t … 10000·t + 9999 of the three row-indexed arrays
  (the gathered source rows, the edge attributes, the edge weights as a column) and the whole of the five weight arrays
  (the two row ranges of the first weight matrix, the first bias as one row, the second weight matrix, the second bias as
  one row), and it writes back rows 10000·t … 10000·t + 9999 of the output.

  Three steps.
  1. What the body stores, read at entry (r, j) of the block: the two-layer perceptron of row r of the loaded blocks,
     scaled by row r's weight (`pay_apply`). Each matrix product accumulated into zero is a finite sum over the contracted
     index; a row [1, 64] spread over 10000 rows reads its column entry; a column [10000, 1] spread over 64 columns reads
     its row entry; the rectifier is pointwise.
  2. A row's message depends only on that row of the row operands and on the weights (`msgArr_congr`), and row p of block
     t IS row 10000·t + p of the array (`blk0_apply` … `blk7_apply`, `out_emb`); so what point t writes back is block t of
     the message array of the arrays found at entry (`flushed_eq`).
  3. Row e lies in the block of point e / 10000 and every point writes back (`cover`); so the output array ends holding
     the message array (`arr_eq`, `msg_arr`).
-/
import proofs.«429976_j35399120454035_2_alg».proof.Proof.Gen.KernelIdeal.Frame
import proofs.«429976_j35399120454035_2_alg».proof.Proof.Spec
import proofs.«429976_j35399120454035_2_alg».proof.Proof.LibMatmulPlain
import proofs.«429976_j35399120454035_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-! ## 1. The stored block at an entry -/

/-- The dimension record of the 10000×64 by 64×64 products is the plain one (contract axis 1 with axis 0, no batch axis). -/
theorem dot64_eq : dot_S10000x64_S64x64_S10000x64_1_0_0_1_n_n = DotDims.plain 10000 64 64 := rfl

/-- The dimension record of the 10000×32 by 32×64 product is the plain one. -/
theorem dot32_eq : dot_S10000x32_S32x64_S10000x64_1_0_0_1_n_n = DotDims.plain 10000 32 64 := rfl

/-- Entry (i, j) of l·w accumulated into zero, l of 64 columns: the sum over q of l[i, q] · w[q, j]. -/
theorem mm64_apply (l : FVec Ideal S10000x64 .f32) (w : FVec Ideal S64x64 .f32) (i : Fin 10000) (j : Fin 64) :
    matmul dot_S10000x64_S64x64_S10000x64_1_0_0_1_n_n (some .fp32) l w (constant S10000x64 .f32 0x00000000#32) (ix2 i j)
      = ∑ q : Fin 64, l (ix2 i q) * w (ix2 q j) := by
  rw [dot64_eq]
  exact Cert.LibMatmulPlain.matmul_plain_apply (M := 10000) (K := 64) (N := 64) l w i j

/-- Entry (i, j) of l·w accumulated into zero, l of 32 columns: the sum over q of l[i, q] · w[q, j]. -/
theorem mm32_apply (l : FVec Ideal S10000x32 .f32) (w : FVec Ideal S32x64 .f32) (i : Fin 10000) (j : Fin 64) :
    matmul dot_S10000x32_S32x64_S10000x64_1_0_0_1_n_n (some .fp32) l w (constant S10000x64 .f32 0x00000000#32) (ix2 i j)
      = ∑ q : Fin 32, l (ix2 i q) * w (ix2 q j) := by
  rw [dot32_eq]
  exact Cert.LibMatmulPlain.matmul_plain_apply (M := 10000) (K := 32) (N := 64) l w i j

/-- One row [1, 64] spread over 10000 rows reads, at (i, j), the row's entry j. -/
theorem row_apply (v : FVec Ideal S1x64 .f32) (i : Fin 10000) (j : Fin 64) :
    broadcastTo S10000x64 v broadcasts_S1x64_S10000x64 (ix2 i j) = v (ix2 (0 : Fin 1) j) := by
  refine broadcastTo_apply v broadcasts_S1x64_S10000x64 (ix2 i j) (ix2 (0 : Fin 1) j) fun ax => ?_
  match ax with
  | ⟨0, _⟩ => rfl
  | ⟨1, _⟩ => rfl

/-- One column [10000, 1] spread over 64 columns reads, at (i, j), the column's entry i. -/
theorem col_apply (v : FVec Ideal S10000x1 .f32) (i : Fin 10000) (j : Fin 64) :
    broadcastTo S10000x64 v broadcasts_S10000x1_S10000x64 (ix2 i j) = v (ix2 i (0 : Fin 1)) :=
  Cert.LibKeepdims.broadcastTo_a1_ab_apply v broadcasts_S10000x1_S10000x64 i j

/-- The first layer before the rectifier, for a block of rows: s·Wa + a·Wb + b1, each product accumulated into zero. -/
def pre (x0 : FVec Ideal S10000x64 .f32) (x1 : FVec Ideal S10000x32 .f32) (x3 : FVec Ideal S64x64 .f32)
    (x4 : FVec Ideal S32x64 .f32) (x5 : FVec Ideal S1x64 .f32) : FVec Ideal S10000x64 .f32 :=
  addf (addf (matmul dot_S10000x64_S64x64_S10000x64_1_0_0_1_n_n (some .fp32) x0 x3 (constant S10000x64 .f32 0x00000000#32))
      (matmul dot_S10000x32_S32x64_S10000x64_1_0_0_1_n_n (some .fp32) x1 x4 (constant S10000x64 .f32 0x00000000#32)))
    (broadcastTo S10000x64 x5 broadcasts_S1x64_S10000x64)

/-- Entry (r, q) of the first layer is the affine map of row r of the two row operands, at output column q. -/
theorem pre_apply (x0 : FVec Ideal S10000x64 .f32) (x1 : FVec Ideal S10000x32 .f32) (x3 : FVec Ideal S64x64 .f32)
    (x4 : FVec Ideal S32x64 .f32) (x5 : FVec Ideal S1x64 .f32) (r : Fin 10000) (q : Fin 64) :
    pre x0 x1 x3 x4 x5 (ix2 r q)
      = Cert.Spec.lin2 (fun k => x0 (ix2 r k)) (fun k => x1 (ix2 r k)) (fun k j => x3 (ix2 k j)) (fun k j => x4 (ix2 k j))
          (fun j => x5 (ix2 (0 : Fin 1) j)) q := by
  show matmul dot_S10000x64_S64x64_S10000x64_1_0_0_1_n_n (some .fp32) x0 x3 (constant S10000x64 .f32 0x00000000#32) (ix2 r q)
      + matmul dot_S10000x32_S32x64_S10000x64_1_0_0_1_n_n (some .fp32) x1 x4 (constant S10000x64 .f32 0x00000000#32) (ix2 r q)
      + broadcastTo S10000x64 x5 broadcasts_S1x64_S10000x64 (ix2 r q) = _
  rw [mm64_apply, mm32_apply, row_apply]
  rfl

/-- The rectified first layer: an entry that is at least zero is kept, any other is scaled by the slope. -/
def act (p : FVec Ideal S10000x64 .f32) : FVec Ideal S10000x64 .f32 :=
  select (cmpf .oge p (broadcast S10000x64 (FloatOps.ofBits .f32 0x00000000#32))) p
    (mulf (broadcast S10000x64 (FloatOps.ofBits .f32 0x3DCCCCCD#32)) p)

/-- The rectifier acts entry by entry. -/
theorem act_apply (p : FVec Ideal S10000x64 .f32) (i : S10000x64.Idx) : act p i = Cert.Spec.leaky (p i) := rfl

/-- THE STORED BLOCK AT AN ENTRY: entry (r, j) of what the body stores is the message of row r of the loaded blocks
    (the casts to the same shape are identities; the second layer is a product accumulated into zero plus the bias row,
    and the whole is scaled by the weight column). -/
theorem pay_apply (x0 : Vec Ideal S10000x64 .f32) (x1 : Vec Ideal S10000x32 .f32) (x2 : Vec Ideal S10000x1 .f32)
    (x3 : Vec Ideal S64x64 .f32) (x4 : Vec Ideal S32x64 .f32) (x5 : Vec Ideal S1x64 .f32) (x6 : Vec Ideal S64x64 .f32)
    (x7 : Vec Ideal S1x64 .f32) (r : Fin 10000) (j : Fin 64) :
    k0_pay1 x0 x3 x1 x4 x5 x6 x7 x2 (ix2 r j) = Cert.Spec.msgArr (E := 10000) x0 x1 x2 x3 x4 x5 x6 x7 r j := by
  unfold k0_pay1
  simp only [shapeCast_self]
  show (matmul dot_S10000x64_S64x64_S10000x64_1_0_0_1_n_n (some .fp32) (act (pre x0 x1 x3 x4 x5)) x6 (constant S10000x64 .f32 0x00000000#32) (ix2 r j)
      + broadcastTo S10000x64 x7 broadcasts_S1x64_S10000x64 (ix2 r j)) * broadcastTo S10000x64 x2 broadcasts_S10000x1_S10000x64 (ix2 r j) = _
  rw [mm64_apply, row_apply, col_apply]
  simp only [act_apply, pre_apply]
  rfl

/-! ## 2. From a block to the array -/

/-- A row's message depends on that row of the three row operands and on the whole of the five weight operands:
    two families of operands that agree there give the same message. -/
theorem msgArr_congr {E E' : ℕ}
    (src : (⟨2, ![E, 64]⟩ : Shape).Idx → EReal) (ea : (⟨2, ![E, 32]⟩ : Shape).Idx → EReal) (ew : (⟨2, ![E, 1]⟩ : Shape).Idx → EReal)
    (src' : (⟨2, ![E', 64]⟩ : Shape).Idx → EReal) (ea' : (⟨2, ![E', 32]⟩ : Shape).Idx → EReal) (ew' : (⟨2, ![E', 1]⟩ : Shape).Idx → EReal)
    (Wa Wa' : (⟨2, ![64, 64]⟩ : Shape).Idx → EReal) (Wb Wb' : (⟨2, ![32, 64]⟩ : Shape).Idx → EReal)
    (b1 b1' : (⟨2, ![1, 64]⟩ : Shape).Idx → EReal) (W2 W2' : (⟨2, ![64, 64]⟩ : Shape).Idx → EReal) (b2 b2' : (⟨2, ![1, 64]⟩ : Shape).Idx → EReal)
    (e : Fin E) (e' : Fin E') (j : Fin 64)
    (h0 : ∀ k, src (ix2 e k) = src' (ix2 e' k)) (h1 : ∀ k, ea (ix2 e k) = ea' (ix2 e' k))
    (h2 : ew (ix2 e (0 : Fin 1)) = ew' (ix2 e' (0 : Fin 1)))
    (h3 : ∀ k q, Wa (ix2 k q) = Wa' (ix2 k q)) (h4 : ∀ k q, Wb (ix2 k q) = Wb' (ix2 k q))
    (h5 : ∀ q, b1 (ix2 (0 : Fin 1) q) = b1' (ix2 (0 : Fin 1) q)) (h6 : ∀ k q, W2 (ix2 k q) = W2' (ix2 k q))
    (h7 : ∀ q, b2 (ix2 (0 : Fin 1) q) = b2' (ix2 (0 : Fin 1) q)) :
    Cert.Spec.msgArr src ea ew Wa Wb b1 W2 b2 e j = Cert.Spec.msgArr src' ea' ew' Wa' Wb' b1' W2' b2' e' j := by
  unfold Cert.Spec.msgArr
  rw [funext h0, funext h1, h2, funext fun k => funext (h3 k), funext fun k => funext (h4 k), funext h5,
    funext fun k => funext (h6 k), funext h7]

-- the contents of the arrays when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The grid has 160 points. -/
theorem t_lt (t : Fin cfg0.N) : t.val < 160 := Nat.lt_of_lt_of_eq t.isLt N_0

/-- The index maps over the grid: at point t the row-blocked windows (the three row operands and the output) are at
    block (t, 0), the weight windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- Row p of block t is row 10000·t + p of the array. -/
def row (t : Fin cfg0.N) (p : Fin 10000) : Fin 1600000 :=
  ⟨10000 * t.val + p.val, by have := t_lt t; have := p.isLt; omega⟩

/-! Each input block read at an entry: a block's coordinate in its array is, on each axis, the block index times the
    block's size plus the coordinate inside the block. -/

/-- The source rows' block at point t: its row p is the array's row 10000·t + p. -/
theorem blk0_apply (c : Dev nD) (t : Fin cfg0.N) (p : Fin 10000) (k : Fin 64) :
    (iblk0 V c 0 t : S10000x64.Idx → EReal) (ix2 p k) = (V c main_v4 : S1600000x64.Idx → EReal) (ix2 (row t p) k) := by
  obtain ⟨⟨e0, e1⟩, -⟩ := idx_facts t
  show V c main_v4 (((cfg0.win 0).blk t).view.emb (ix2 p k)) = _
  refine congrArg (V c main_v4) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 64 + 1 * k.val = k.val; rw [e1]; omega

/-- The edge attributes' block at point t: its row p is the array's row 10000·t + p. -/
theorem blk1_apply (c : Dev nD) (t : Fin cfg0.N) (p : Fin 10000) (k : Fin 32) :
    (iblk0 V c 1 t : S10000x32.Idx → EReal) (ix2 p k) = (V c main_arg2 : S1600000x32.Idx → EReal) (ix2 (row t p) k) := by
  obtain ⟨-, ⟨e0, e1⟩, -⟩ := idx_facts t
  show V c main_arg2 (((cfg0.win 1).blk t).view.emb (ix2 p k)) = _
  refine congrArg (V c main_arg2) (funext fun a => Fin.ext ?_)
  match a with
  | ⟨0, _⟩ => show win0_1.index t (0 : Fin 2) * 10000 + 1 * p.val = 10000 * t.val + p.val; rw [e0]; omega
  | ⟨1, _⟩ => show win0_1.index t (1 : Fin 2) * 32 + 1 * k.val = k.val; rw [e1]; omega

/-- The edge weights' block at point t: its row p is the column's row 10000·t + p. -/
theorem blk2_apply (c : Dev nD) (t : Fin cfg0.N) (p : Fin 10000) (k : Fin 1) :
    (iblk0 V c 2 t : S10000x1.Idx → EReal) (ix2 p k) = (V c main_v7 : S1600000x1.Idx → EReal) (ix2 (row t p) k) := by
  obtain ⟨-, -, ⟨e0, e1⟩, -⟩ := idx_facts t
  show V c main_v7 (((cfg0.win 2).blk t).view.emb (ix2 p k)) = _
  refine congrArg (V c main_v7) (funext fun a => Fin.ext ?_)
  match a with
  | ⟨0, _⟩ => show win0_2.index t (0 : Fin 2) * 10000 + 1 * p.val = 10000 * t.val + p.val; rw [e0]; omega
  | ⟨1, _⟩ => show win0_2.index t (1 : Fin 2) * 1 + 1 * k.val = k.val; rw [e1]; omega

/-- The first weight matrix's upper rows: the block at any point is the whole array. -/
theorem blk3_apply (c : Dev nD) (t : Fin cfg0.N) (k : Fin 64) (q : Fin 64) :
    (iblk0 V c 3 t : S64x64.Idx → EReal) (ix2 k q) = (V c main_v5 : S64x64.Idx → EReal) (ix2 k q) := by
  obtain ⟨-, -, -, ⟨e0, e1⟩, -⟩ := idx_facts t
  show V c main_v5 (((cfg0.win 3).blk t).view.emb (ix2 k q)) = _
  refine congrArg (V c main_v5) (funext fun a => Fin.ext ?_)
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- The first weight matrix's lower rows: the block at any point is the whole array. -/
theorem blk4_apply (c : Dev nD) (t : Fin cfg0.N) (k : Fin 32) (q : Fin 64) :
    (iblk0 V c 4 t : S32x64.Idx → EReal) (ix2 k q) = (V c main_v6 : S32x64.Idx → EReal) (ix2 k q) := by
  obtain ⟨-, -, -, -, ⟨e0, e1⟩, -⟩ := idx_facts t
  show V c main_v6 (((cfg0.win 4).blk t).view.emb (ix2 k q)) = _
  refine congrArg (V c main_v6) (funext fun a => Fin.ext ?_)
  match a with
  | ⟨0, _⟩ => show win0_4.index t (0 : Fin 2) * 32 + 1 * k.val = k.val; rw [e0]; omega
  | ⟨1, _⟩ => show win0_4.index t (1 : Fin 2) * 64 + 1 * q.val = q.val; rw [e1]; omega

/-- The first bias row: the block at any point is the whole array. -/
theorem blk5_apply (c : Dev nD) (t : Fin cfg0.N) (k : Fin 1) (q : Fin 64) :
    (iblk0 V c 5 t : S1x64.Idx → EReal) (ix2 k q) = (V c main_v8 : S1x64.Idx → EReal) (ix2 k q) := by
  obtain ⟨-, -, -, -, -, ⟨e0, e1⟩, -⟩ := idx_facts t
  show V c main_v8 (((cfg0.win 5).blk t).view.emb (ix2 k q)) = _
  refine congrArg (V c main_v8) (funext fun a => Fin.ext ?_)
  match a with
  | ⟨0, _⟩ => show win0_5.index t (0 : Fin 2) * 1 + 1 * k.val = k.val; rw [e0]; omega
  | ⟨1, _⟩ => show win0_5.index t (1 : Fin 2) * 64 + 1 * q.val = q.val; rw [e1]; omega

/-- The second weight matrix: the block at any point is the whole array. -/
theorem blk6_apply (c : Dev nD) (t : Fin cfg0.N) (k : Fin 64) (q : Fin 64) :
    (iblk0 V c 6 t : S64x64.Idx → EReal) (ix2 k q) = (V c main_arg6 : S64x64.Idx → EReal) (ix2 k q) := by
  obtain ⟨-, -, -, -, -, -, ⟨e0, e1⟩, -⟩ := idx_facts t
  show V c main_arg6 (((cfg0.win 6).blk t).view.emb (ix2 k q)) = _
  refine congrArg (V c main_arg6) (funext fun a => Fin.ext ?_)
  match a with
  | ⟨0, _⟩ => show win0_6.index t (0 : Fin 2) * 64 + 1 * k.val = k.val; rw [e0]; omega
  | ⟨1, _⟩ => show win0_6.index t (1 : Fin 2) * 64 + 1 * q.val = q.val; rw [e1]; omega

/-- The second bias row: the block at any point is the whole array. -/
theorem blk7_apply (c : Dev nD) (t : Fin cfg0.N) (k : Fin 1) (q : Fin 64) :
    (iblk0 V c 7 t : S1x64.Idx → EReal) (ix2 k q) = (V c main_v9 : S1x64.Idx → EReal) (ix2 k q) := by
  obtain ⟨-, -, -, -, -, -, -, ⟨e0, e1⟩, -⟩ := idx_facts t
  show V c main_v9 (((cfg0.win 7).blk t).view.emb (ix2 k q)) = _
  refine congrArg (V c main_v9) (funext fun a => Fin.ext ?_)
  match a with
  | ⟨0, _⟩ => show win0_7.index t (0 : Fin 2) * 1 + 1 * k.val = k.val; rw [e0]; omega
  | ⟨1, _⟩ => show win0_7.index t (1 : Fin 2) * 64 + 1 * q.val = q.val; rw [e1]; omega

/-- The message array of the arrays the region finds at entry, as one function of the index. -/
def G (c : Dev nD) : S1600000x64.Idx → EReal := fun i =>
  Cert.Spec.msgArr (E := 1600000) (V c main_v4 : S1600000x64.Idx → EReal) (V c main_arg2 : S1600000x32.Idx → EReal)
    (V c main_v7 : S1600000x1.Idx → EReal) (V c main_v5 : S64x64.Idx → EReal) (V c main_v6 : S32x64.Idx → EReal)
    (V c main_v8 : S1x64.Idx → EReal) (V c main_arg6 : S64x64.Idx → EReal) (V c main_v9 : S1x64.Idx → EReal) (i 0) (i 1)

/-- Entry (p, q) of the output's block t sits at (10000·t + p, q) of the array. -/
theorem out_emb (t : Fin cfg0.N) (p : Fin 10000) (q : Fin 64) :
    ((cfg0.win 8).blk t).view.emb (ix2 p q) = (ix2 (row t p) q : S1600000x64.Idx) := by
  obtain ⟨-, -, -, -, -, -, -, -, ⟨e0, e1⟩⟩ := idx_facts t
  refine funext fun a => Fin.ext ?_
  match a with
  | ⟨0, _⟩ => show win0_8.index t (0 : Fin 2) * 10000 + 1 * p.val = 10000 * t.val + p.val; rw [e0]; omega
  | ⟨1, _⟩ => show win0_8.index t (1 : Fin 2) * 64 + 1 * q.val = q.val; rw [e1]; omega

/-- WHAT POINT t WRITES BACK is block t of the message array: the body's one store fills the whole staging block with
    the stored block of step 1 over the input blocks at t, and each input block's row p is row 10000·t + p of its array. -/
theorem flushed_eq (c : Dev nD) (t : Fin cfg0.N) :
    (dat0 (F := Ideal) V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S10000x64) hz, View.ld_unit_zero (S := S10000x32) hz, View.ld_unit_zero (S := S10000x1) hz,
    View.ld_unit_zero (S := S64x64) hz, View.ld_unit_zero (S := S32x64) hz, View.ld_unit_zero (S := S1x64) hz]
  funext y
  obtain ⟨p, q, rfl⟩ : ∃ (p : Fin 10000) (q : Fin 64), y = ix2 p q := ⟨y 0, y 1, eq_ix2 y⟩
  show k0_pay1 (iblk0 V c 0 t) (iblk0 V c 3 t) (iblk0 V c 1 t) (iblk0 V c 4 t) (iblk0 V c 5 t) (iblk0 V c 6 t) (iblk0 V c 7 t) (iblk0 V c 2 t) (ix2 p q)
    = G V c (((cfg0.win 8).blk t).view.emb (ix2 p q))
  refine (pay_apply (iblk0 V c 0 t) (iblk0 V c 1 t) (iblk0 V c 2 t) (iblk0 V c 3 t) (iblk0 V c 4 t) (iblk0 V c 5 t)
    (iblk0 V c 6 t) (iblk0 V c 7 t) p q).trans ?_
  refine Eq.trans ?_ (congrArg (G V c) (out_emb t p q)).symm
  exact msgArr_congr (iblk0 V c 0 t) (iblk0 V c 1 t) (iblk0 V c 2 t) (V c main_v4) (V c main_arg2) (V c main_v7)
    (iblk0 V c 3 t) (V c main_v5) (iblk0 V c 4 t) (V c main_v6) (iblk0 V c 5 t) (V c main_v8) (iblk0 V c 6 t) (V c main_arg6)
    (iblk0 V c 7 t) (V c main_v9) p (row t p) q
    (fun k => blk0_apply V c t p k) (fun k => blk1_apply V c t p k) (blk2_apply V c t p 0)
    (fun k q' => blk3_apply V c t k q') (fun k q' => blk4_apply V c t k q') (fun q' => blk5_apply V c t 0 q')
    (fun k q' => blk6_apply V c t k q') (fun q' => blk7_apply V c t 0 q')

/-! ## 3. The cover, and the array -/

/-- An index of the array is in point t's block iff each coordinate is in the block's range on its axis. -/
theorem mem_blk (t : Fin cfg0.N) (i : S1600000x64.Idx) :
    i ∈ ((cfg0.win 8).blk t).view.set ↔ ∀ a : Fin 2, win0_8.index t a * S10000x64.size a ≤ (i a).val ∧ (i a).val < win0_8.index t a * S10000x64.size a + S10000x64.size a := by
  show i ∈ ((View.whole main_v10).slice (win0_8.rect t)).set ↔ _
  rw [View.set_slice_whole, Rect.mem_set_unit]
  exact Iff.rfl

/-- THE COVER: row e lies in the block of point e / 10000, and every point writes its block back. -/
theorem cover (i : S1600000x64.Idx) : ∃ t : Fin cfg0.N, (cfg0.win 8).flush t = true ∧ i ∈ ((cfg0.win 8).blk t).view.set := by
  have hi0 : (i 0).val < 1600000 := (i 0).isLt
  have hi1 : (i 1).val < 64 := (i 1).isLt
  have hN : cfg0.N = 160 := N_0
  obtain ⟨t, ht⟩ : ∃ t : Fin cfg0.N, t.val = (i 0).val / 10000 := ⟨⟨(i 0).val / 10000, by rw [hN]; omega⟩, rfl⟩
  obtain ⟨-, -, -, -, -, -, -, -, ⟨e0, e1⟩⟩ := idx_facts t
  refine ⟨t, flush0_8 t, ?_⟩
  rw [mem_blk]
  intro a
  match a with
  | ⟨0, _⟩ => show win0_8.index t (0 : Fin 2) * 10000 ≤ (i 0).val ∧ (i 0).val < win0_8.index t (0 : Fin 2) * 10000 + 10000; rw [e0, ht]; omega
  | ⟨1, _⟩ => show win0_8.index t (1 : Fin 2) * 64 ≤ (i 1).val ∧ (i 1).val < win0_8.index t (1 : Fin 2) * 64 + 64; rw [e1]; omega

/-- THE ARRAY after the region: the message array of the arrays at entry (every index is covered, and every point
    writes back its block of that one array). -/
theorem arr_eq (c : Dev nD) : (dat0 (F := Ideal) V c).arrAt 8 cfg0.N = G V c :=
  (dat0 V c).arrAt_eq_of_cover 8 (G V c) (fun t _ => flushed_eq V c t) cover

/-- THE VALUE OF THE REGION: entry (e, j) of the output array after the region is edge e's message at column j, of the
    arrays the region finds at entry, whatever they hold. -/
theorem msg_arr (c : Dev nD) (e : Fin 1600000) (j : Fin 64) :
    (Gen.dat0 (F := Ideal) V c).arrAt 8 cfg0.N (ix2 e j)
      = Cert.Spec.msgArr (E := 1600000) (V c main_v4) (V c main_arg2) (V c main_v7) (V c main_v5) (V c main_v6) (V c main_v8)
          (V c main_arg6) (V c main_v9) e j :=
  congrFun (arr_eq V c) (ix2 e j)

end Cert.KernelIdeal.EdgeValue

end
-- ==== Proof.UpdPayload.lean ====
/-
  The update perceptron's body at one entry of a block of 10000 rows.

  The body takes a block x of node rows and the matching block agg of summed messages, both [10000, 64], and the small
  operands whole: the two halves Ua, Ub of the first weight matrix, its bias row ub1, the normalisation's gain and
  shift rows g and b, the second weight matrix U2 and its bias row ub2. It forms h = x·Ua + agg·Ub + ub1, normalises
  every row of h (subtract the row's mean; multiply by the reciprocal square root of the row's mean squared deviation
  plus ε; multiply by g, add b), applies the leaky rectifier, and returns that times U2 plus ub2.

  Read at entry (r, j) every step is a step on row r alone: a product with a 64×64 matrix is a sum over 64 terms, the
  two row reductions are sums over the 64 entries of row r, the column [10000, 1] that carries a row's mean (or its
  reciprocal deviation) back over the row reads that row's value, and a [1, 64] row repeated down the block reads its
  own entry of column j. What is left is the specification's `updArr` of the same operands at (r, j), term for term.
-/
import proofs.«429976_j35399120454035_2_alg».proof.Proof.Gen.KernelIdeal.Skeleton
import proofs.«429976_j35399120454035_2_alg».proof.Proof.Spec
import proofs.«429976_j35399120454035_2_alg».proof.Proof.LibMatmulPlain
import proofs.«429976_j35399120454035_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdPayload

open Cert.KernelIdeal Cert.KernelIdeal.Gen Idealize.ShloMosaic Idealize.ShloMosaic.ValueIdx
open scoped BigOperators

/-- The printed dimension record of the three products is the plain 10000×64 by 64×64 one. -/
theorem dot_eq_plain : dot_S10000x64_S64x64_S10000x64_1_0_0_1_n_n = DotDims.plain 10000 64 64 := rfl

/-- A product of a block of 10000 rows with a 64×64 matrix, accumulated into zero, at entry (r, j): the sum over q
    of l[r, q] · w[q, j]. -/
theorem mm_apply (l : FVec Ideal S10000x64 .f32) (w : FVec Ideal S64x64 .f32) (r : Fin 10000) (j : Fin 64) :
    matmul dot_S10000x64_S64x64_S10000x64_1_0_0_1_n_n (some .fp32) l w (constant (F := Ideal) S10000x64 .f32 0x00000000#32) (ix2 r j)
      = ∑ q : Fin 64, l (ix2 r q) * w (ix2 q j) :=
  Cert.LibMatmulPlain.matmul_plain_apply l w r j

/-- The sum along a row of the block, at row r: the sum over k of z[r, k]. -/
theorem rowsum_apply (z : FVec Ideal S10000x64 .f32) (hφ : FTy.f32 = FTy.f32 ∨ FTy.f32 = FTy.bf16)
    (hacc : (0x00000000#32 : BitVec 32) = 0x00000000#32) (r : Fin 10000) :
    multiReduction (F := Ideal) .add [1] S10000 z 0x00000000#32 reduces_S10000x64_S10000 hφ hacc (ix1 r)
      = ∑ k : Fin 64, z (ix2 r k) := by
  refine (Ideal.multiReduction_add_single z 0x00000000#32 reduces_S10000x64_S10000 hφ hacc (ix1 r)).trans ?_
  exact Finset.sum_congr rfl fun k _ => congrArg z (funext fun a => Fin.ext (by
    match a with
    | ⟨0, _⟩ => rfl
    | ⟨1, _⟩ => rfl))

/-- A [1, 64] row repeated down the 10000 rows reads, at (r, j), the row at (0, j). -/
theorem rowbc_apply {α : Type} (v : S1x64.Idx → α) (r : Fin 10000) (j : Fin 64) :
    broadcastTo S10000x64 v broadcasts_S1x64_S10000x64 (ix2 r j) = v (ix2 (0 : Fin 1) j) := by
  refine broadcastTo_apply v broadcasts_S1x64_S10000x64 (ix2 r j) (ix2 (0 : Fin 1) j) fun ax => ?_
  match ax with
  | ⟨0, _⟩ => rfl
  | ⟨1, _⟩ => rfl

/-- A per-row quantity [10000] as a column [10000, 1] reads, at (r, u), the quantity of row r. -/
theorem colcast_apply {α : Type} (v : S10000.Idx → α) (r : Fin 10000) (u : Fin 1) :
    shapeCast S10000x1 v shapeCasts_S10000_S10000x1 (ix2 r u) = v (ix1 r) :=
  Cert.LibKeepdims.shapeCast_a_a1_apply v shapeCasts_S10000_S10000x1 r u

/-- A column [10000, 1] repeated along the 64 columns reads, at (r, j), the column's entry of row r. -/
theorem colbc_apply {α : Type} (v : S10000x1.Idx → α) (r : Fin 10000) (j : Fin 64) :
    broadcastTo S10000x64 v broadcasts_S10000x1_S10000x64 (ix2 r j) = v (ix2 r (0 : Fin 1)) :=
  Cert.LibKeepdims.broadcastTo_a1_ab_apply v broadcasts_S10000x1_S10000x64 r j

/-- A reciprocal square root at an index is the ideal one of the element. -/
theorem rsqrt_apply {s : Shape} {φ : FTy} (a : FVec Ideal s φ) (i : s.Idx) : rsqrt a i = Ideal.rsqrt (a i) := rfl

/-- THE BODY AT AN ENTRY. With the operands as variables of the block's shapes, the stored value at (r, j) is the
    specification's updated row r of the block, at column j: first every pointwise step, product, repeated row and
    carried-back column is read at the entry; then the two row sums (the mean's, and the squared deviations' — whose
    summands hold the mean's sum again) are opened one after the other, each followed by reading its summands at their
    entries; what remains is `updArr` unfolded. -/
theorem upd_payload (x0 x1 : Vec Ideal S10000x64 .f32) (x2 x3 : Vec Ideal S64x64 .f32) (x4 x5 x6 : Vec Ideal S1x64 .f32)
    (x7 : Vec Ideal S64x64 .f32) (x8 : Vec Ideal S1x64 .f32) (r : Fin 10000) (j : Fin 64) :
    k1_pay1 (k1_pay2 x0 x2 x1 x3 x4 x5) (k1_pay3 x6) x7 x8 (ix2 r j)
      = Cert.Spec.updArr (N := 10000) x0 x1 x2 x3 x4 x5 x6 x7 x8 r j := by
  unfold k1_pay1 k1_pay2 k1_pay3
  simp only [shapeCast_self, addf_apply, mulf_apply, subf_apply, divf_apply, rsqrt_apply, select_apply, cmpf_apply,
    broadcast_apply, mm_apply, rowbc_apply, colcast_apply, colbc_apply]
  rw [rowsum_apply, rowsum_apply]
  simp only [addf_apply, mulf_apply, subf_apply, divf_apply, broadcast_apply, mm_apply, rowbc_apply, colcast_apply, colbc_apply]
  rw [rowsum_apply]
  simp only [addf_apply, mm_apply, rowbc_apply]
  rfl

end Cert.KernelIdeal.UpdPayload

end
-- ==== Proof.UpdValue.lean ====
/-
  The updated node array, as one function of the arrays the update region finds at entry.

  The region runs over a grid of 10 points. At point t the body sees rows 10000·t … 10000·t + 9999 of the node-feature
  array and of the summed-message array, sees the seven small operands (the two halves of the first weight matrix, its
  bias row, the normalisation's gain and shift rows, the second weight matrix and its bias row) whole, and writes rows
  10000·t … 10000·t + 9999 of the result. Since every row of the body's result depends only on the same row of the two
  row-indexed operands (`UpdPayload.upd_payload`), what point t writes back is rows 10000·t … of ONE function of the
  entry arrays: `Spec.updArr` over all 100000 rows. The ten row blocks cover the array (row n lies in block n / 10000),
  so after the last point the array holds that function everywhere, whatever the entry contents were.
-/
import proofs.«429976_j35399120454035_2_alg».proof.Proof.Gen.KernelIdeal.Frame
import proofs.«429976_j35399120454035_2_alg».proof.Proof.Spec
import proofs.«429976_j35399120454035_2_alg».proof.Proof.UpdPayload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdValue

open Cert.KernelIdeal Cert.KernelIdeal.Gen Idealize.ShloMosaic Idealize.ShloMosaic.TcCoe Idealize.ShloMosaic.ValueIdx Idealize.SL.Sem
open Idealize.ShloMosaic.Pipeline (Dat)

-- the contents of every array when the region is entered: any
variable (V : (c : Dev nD) → (b : Ref sig .tc) → Buf (Elt Ideal) ((c : Thread nD τ).loc b))

/-! ## Where each block sits in its array -/

/-- The body reads and writes its blocks from their first entry: offsets (0, 0). -/
theorem zero_offsets : (![0, 0] : Fin 2 → Nat) = fun _ => 0 := funext fun a => by fin_cases a <;> rfl

/-- The three row-indexed arrays (node features, summed messages, result) are cut into blocks of rows: at point t the
    block index is (t, 0). Decided over the ten points. -/
theorem row_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

/-- The seven small operands are not cut: at every point the block index is (0, 0). Decided over the ten points. -/
theorem whole_block_index : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## Each input block read at an entry

An entry of a block sits in its array, on each axis, at block index × block size + its coordinate inside the block. -/

/-- Row r of the node-feature block at point t is row 10000·t + r of the node-feature array. -/
theorem x_block (c : Dev nD) (t : Fin cfg1.N) (r : Fin 10000) (k : Fin 64) (n : Fin 100000) (hn : n.val = 10000 * t.val + r.val) :
    (iblk1 V c 0 t : Vec Ideal S10000x64 .f32) (ix2 r k) = (V c main_arg0 : S100000x64.Idx → EReal) (ix2 n k) := by
  obtain ⟨e0, e1, -⟩ := row_block_index t
  unfold iblk1
  rw [View.read_apply]
  show V c main_arg0 _ = V c main_arg0 _
  congr 1
  funext a
  apply Fin.ext
  match a with
  | ⟨0, _⟩ => show win1_0.index t (0 : Fin 2) * 10000 + 1 * r.val = n.val; rw [e0, hn]; omega
  | ⟨1, _⟩ => show win1_0.index t (1 : Fin 2) * 64 + 1 * k.val = k.val; rw [e1]; omega

/-- Row r of the summed-message block at point t is row 10000·t + r of the summed-message array. -/
theorem agg_block (c : Dev nD) (t : Fin cfg1.N) (r : Fin 10000) (k : Fin 64) (n : Fin 100000) (hn : n.val = 10000 * t.val + r.val) :
    (iblk1 V c 1 t : Vec Ideal S10000x64 .f32) (ix2 r k) = (V c main_v13 : S100000x64.Idx → EReal) (ix2 n k) := by
  obtain ⟨-, -, e0, e1, -⟩ := row_block_index t
  unfold iblk1
  rw [View.read_apply]
  show V c main_v13 _ = V c main_v13 _
  congr 1
  funext a
  apply Fin.ext
  match a with
  | ⟨0, _⟩ => show win1_1.index t (0 : Fin 2) * 10000 + 1 * r.val = n.val; rw [e0, hn]; omega
  | ⟨1, _⟩ => show win1_1.index t (1 : Fin 2) * 64 + 1 * k.val = k.val; rw [e1]; omega

/-- The block of the first weight matrix's upper half is that whole matrix, at every point. -/
theorem ua_block (c : Dev nD) (t : Fin cfg1.N) (q : Fin 64) (k : Fin 64) :
    (iblk1 V c 2 t : Vec Ideal S64x64 .f32) (ix2 q k) = (V c main_v14 : S64x64.Idx → EReal) (ix2 q k) := by
  obtain ⟨e0, e1, -⟩ := whole_block_index t
  unfold iblk1
  rw [View.read_apply]
  show V c main_v14 _ = V c main_v14 _
  congr 1
  funext a
  apply Fin.ext
  match a with
  | ⟨0, _⟩ => show win1_2.index t (0 : Fin 2) * 64 + 1 * q.val = q.val; rw [e0]; omega
  | ⟨1, _⟩ => show win1_2.index t (1 : Fin 2) * 64 + 1 * k.val = k.val; rw [e1]; omega

/-- The block of the first weight matrix's lower half is that whole matrix, at every point. -/
theorem ub_block (c : Dev nD) (t : Fin cfg1.N) (q : Fin 64) (k : Fin 64) :
    (iblk1 V c 3 t : Vec Ideal S64x64 .f32) (ix2 q k) = (V c main_v15 : S64x64.Idx → EReal) (ix2 q k) := by
  obtain ⟨-, -, e0, e1, -⟩ := whole_block_index t
  unfold iblk1
  rw [View.read_apply]
  show V c main_v15 _ = V c main_v15 _
  congr 1
  funext a
  apply Fin.ext
  match a with
  | ⟨0, _⟩ => show win1_3.index t (0 : Fin 2) * 64 + 1 * q.val = q.val; rw [e0]; omega
  | ⟨1, _⟩ => show win1_3.index t (1 : Fin 2) * 64 + 1 * k.val = k.val; rw [e1]; omega

/-- The block of the first bias row is that whole row, at every point. -/
theorem ub1_block (c : Dev nD) (t : Fin cfg1.N) (u : Fin 1) (k : Fin 64) :
    (iblk1 V c 4 t : Vec Ideal S1x64 .f32) (ix2 u k) = (V c main_v16 : S1x64.Idx → EReal) (ix2 u k) := by
  obtain ⟨-, -, -, -, e0, e1, -⟩ := whole_block_index t
  unfold iblk1
  rw [View.read_apply]
  show V c main_v16 _ = V c main_v16 _
  congr 1
  funext a
  apply Fin.ext
  match a with
  | ⟨0, _⟩ => show win1_4.index t (0 : Fin 2) * 1 + 1 * u.val = u.val; rw [e0]; omega
  | ⟨1, _⟩ => show win1_4.index t (1 : Fin 2) * 64 + 1 * k.val = k.val; rw [e1]; omega

/-- The block of the normalisation's gain row is that whole row, at every point. -/
theorem gain_block (c : Dev nD) (t : Fin cfg1.N) (u : Fin 1) (k : Fin 64) :
    (iblk1 V c 5 t : Vec Ideal S1x64 .f32) (ix2 u k) = (V c main_v17 : S1x64.Idx → EReal) (ix2 u k) := by
  obtain ⟨-, -, -, -, -, -, e0, e1, -⟩ := whole_block_index t
  unfold iblk1
  rw [View.read_apply]
  show V c main_v17 _ = V c main_v17 _
  congr 1
  funext a
  apply Fin.ext
  match a with
  | ⟨0, _⟩ => show win1_5.index t (0 : Fin 2) * 1 + 1 * u.val = u.val; rw [e0]; omega
  | ⟨1, _⟩ => show win1_5.index t (1 : Fin 2) * 64 + 1 * k.val = k.val; rw [e1]; omega

/-- The block of the normalisation's shift row is that whole row, at every point. -/
theorem shift_block (c : Dev nD) (t : Fin cfg1.N) (u : Fin 1) (k : Fin 64) :
    (iblk1 V c 6 t : Vec Ideal S1x64 .f32) (ix2 u k) = (V c main_v18 : S1x64.Idx → EReal) (ix2 u k) := by
  obtain ⟨-, -, -, -, -, -, -, -, e0, e1, -⟩ := whole_block_index t
  unfold iblk1
  rw [View.read_apply]
  show V c main_v18 _ = V c main_v18 _
  congr 1
  funext a
  apply Fin.ext
  match a with
  | ⟨0, _⟩ => show win1_6.index t (0 : Fin 2) * 1 + 1 * u.val = u.val; rw [e0]; omega
  | ⟨1, _⟩ => show win1_6.index t (1 : Fin 2) * 64 + 1 * k.val = k.val; rw [e1]; omega

/-- The block of the second weight matrix is that whole matrix, at every point. -/
theorem u2_block (c : Dev nD) (t : Fin cfg1.N) (q : Fin 64) (k : Fin 64) :
    (iblk1 V c 7 t : Vec Ideal S64x64 .f32) (ix2 q k) = (V c main_arg12 : S64x64.Idx → EReal) (ix2 q k) := by
  obtain ⟨-, -, -, -, -, -, -, -, -, -, e0, e1, -⟩ := whole_block_index t
  unfold iblk1
  rw [View.read_apply]
  show V c main_arg12 _ = V c main_arg12 _
  congr 1
  funext a
  apply Fin.ext
  match a with
  | ⟨0, _⟩ => show win1_7.index t (0 : Fin 2) * 64 + 1 * q.val = q.val; rw [e0]; omega
  | ⟨1, _⟩ => show win1_7.index t (1 : Fin 2) * 64 + 1 * k.val = k.val; rw [e1]; omega

/-- The block of the second bias row is that whole row, at every point. -/
theorem ub2_block (c : Dev nD) (t : Fin cfg1.N) (u : Fin 1) (k : Fin 64) :
    (iblk1 V c 8 t : Vec Ideal S1x64 .f32) (ix2 u k) = (V c main_v19 : S1x64.Idx → EReal) (ix2 u k) := by
  obtain ⟨-, -, -, -, -, -, -, -, -, -, -, -, e0, e1⟩ := whole_block_index t
  unfold iblk1
  rw [View.read_apply]
  show V c main_v19 _ = V c main_v19 _
  congr 1
  funext a
  apply Fin.ext
  match a with
  | ⟨0, _⟩ => show win1_8.index t (0 : Fin 2) * 1 + 1 * u.val = u.val; rw [e0]; omega
  | ⟨1, _⟩ => show win1_8.index t (1 : Fin 2) * 64 + 1 * k.val = k.val; rw [e1]; omega

/-! ## What a point writes back -/

/-- The updated node array: at (n, j), the second perceptron (with the normalisation inside) of node n's own row and
    of its summed messages, all operands read out of the arrays the region finds at entry. -/
abbrev updated (c : Dev nD) : S100000x64.Idx → EReal := fun i =>
  Cert.Spec.updArr (N := 100000) (V c main_arg0 : S100000x64.Idx → EReal) (V c main_v13 : S100000x64.Idx → EReal)
    (V c main_v14 : S64x64.Idx → EReal) (V c main_v15 : S64x64.Idx → EReal) (V c main_v16 : S1x64.Idx → EReal)
    (V c main_v17 : S1x64.Idx → EReal) (V c main_v18 : S1x64.Idx → EReal) (V c main_arg12 : S64x64.Idx → EReal)
    (V c main_v19 : S1x64.Idx → EReal) (i 0) (i 1)

/-- WHAT POINT t WRITES BACK is rows 10000·t … 10000·t + 9999 of `updated`: the body's one store covers its block;
    at entry (r, k) the stored value is the updated row r of the input BLOCKS at column k; row r of the two
    row-indexed blocks is row 10000·t + r of their arrays and the small operands' blocks are their arrays, so that is
    `updated` at (10000·t + r, k), the array entry under (r, k) of the result's block. -/
theorem point_writes_rows (c : Dev nD) (t : Fin cfg1.N) :
    (dat1 V c).flushed 9 t = ((cfg1.win 9).blk t).view.read (Elt Ideal) (updated V c) := by
  show (cfg1.win 9).cut (grid1.coords t) ((dat1 V c).after 9 t) = _
  rw [after1_9]
  unfold out1_9
  rw [View.canon_unit_zero zero_offsets]
  simp only [View.ld_unit_zero (S := S10000x64) zero_offsets, View.ld_unit_zero (S := S64x64) zero_offsets,
    View.ld_unit_zero (S := S1x64) zero_offsets]
  funext y
  obtain ⟨r, k, rfl⟩ : ∃ (r : Fin 10000) (k : Fin 64), y = ix2 r k := ⟨y 0, y 1, eq_ix2 y⟩
  have ht : t.val < 10 := Nat.lt_of_lt_of_eq t.isLt N_1
  have hn : 10000 * t.val + r.val < 100000 := by have := r.isLt; omega
  have he : ((cfg1.win 9).blk t).view.emb (ix2 r k) = (ix2 (⟨10000 * t.val + r.val, hn⟩ : Fin 100000) k : S100000x64.Idx) := by
    obtain ⟨-, -, -, -, e0, e1⟩ := row_block_index t
    funext a
    apply Fin.ext
    match a with
    | ⟨0, _⟩ => show win1_9.index t (0 : Fin 2) * 10000 + 1 * r.val = 10000 * t.val + r.val; rw [e0]; omega
    | ⟨1, _⟩ => show win1_9.index t (1 : Fin 2) * 64 + 1 * k.val = k.val; rw [e1]; omega
  rw [View.read_apply]
  refine Eq.trans ?_ (congrArg (updated V c) he).symm
  refine (UpdPayload.upd_payload (iblk1 V c 0 t) (iblk1 V c 1 t) (iblk1 V c 2 t) (iblk1 V c 3 t) (iblk1 V c 4 t)
    (iblk1 V c 5 t) (iblk1 V c 6 t) (iblk1 V c 7 t) (iblk1 V c 8 t) r k).trans ?_
  have hx := fun q => x_block V c t r q ⟨10000 * t.val + r.val, hn⟩ rfl
  have hagg := fun q => agg_block V c t r q ⟨10000 * t.val + r.val, hn⟩ rfl
  unfold Cert.Spec.updArr
  simp only [hx, hagg, ua_block V c t, ub_block V c t, ub1_block V c t, gain_block V c t, shift_block V c t,
    u2_block V c t, ub2_block V c t]
  rfl

/-! ## The ten row blocks cover the array -/

/-- An entry of the result array lies in point t's block iff, on each axis, its coordinate lies in the block's range. -/
theorem mem_row_block (t : Fin cfg1.N) (i : S100000x64.Idx) :
    i ∈ ((cfg1.win 9).blk t).view.set ↔ ∀ a : Fin 2, win1_9.index t a * S10000x64.size a ≤ (i a).val
      ∧ (i a).val < win1_9.index t a * S10000x64.size a + S10000x64.size a := by
  show i ∈ ((View.whole main_v20).slice (win1_9.rect t)).set ↔ _
  rw [View.set_slice_whole, Rect.mem_set_unit]
  exact Iff.rfl

/-- Row n lies in the block of point n / 10000, and every point writes its block back. -/
theorem rows_covered (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, e0, e1⟩ := row_block_index ⟨(i 0).val / 10000, hlt⟩
  refine ⟨⟨(i 0).val / 10000, hlt⟩, flush1_9 _, ?_⟩
  rw [mem_row_block]
  intro a
  match a with
  | ⟨0, _⟩ =>
    show win1_9.index ⟨(i 0).val / 10000, hlt⟩ (0 : Fin 2) * 10000 ≤ (i 0).val
      ∧ (i 0).val < win1_9.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win1_9.index ⟨(i 0).val / 10000, hlt⟩ (1 : Fin 2) * 64 ≤ (i 1).val
      ∧ (i 1).val < win1_9.index ⟨(i 0).val / 10000, hlt⟩ (1 : Fin 2) * 64 + 64
    rw [e1]
    omega

/-! ## The array after the region -/

/-- THE UPDATED NODE ARRAY after the last point, at (n, j): `Spec.updArr` of the arrays the region found at entry —
    every point wrote its rows of that one function, and the points' row blocks cover the array. -/
theorem upd_arr (c : Dev nD) (n : Fin 100000) (j : Fin 64) :
    (Gen.dat1 (F := Ideal) V c).arrAt 9 cfg1.N (ix2 n j)
      = Cert.Spec.updArr (N := 100000) (V c main_arg0) (V c main_v13) (V c main_v14) (V c main_v15) (V c main_v16)
          (V c main_v17) (V c main_v18) (V c main_arg12) (V c main_v19) n j :=
  congrFun ((dat1 V c).arrAt_eq_of_cover 9 (updated V c) (fun t _ => point_writes_rows V c t) rows_covered) (ix2 n j)

end Cert.KernelIdeal.UpdValue

end
-- ==== Proof.SrcRef.lean ====
import proofs.«429976_j35399120454035_2_alg».proof.Proof.RefRead
import proofs.«429976_j35399120454035_2_alg».proof.Proof.SrcPre
import proofs.«429976_j35399120454035_2_alg».proof.Proof.LibGatherRows
import Idealize.ShloMosaic.Lib.Affine
import Idealize.ShloMosaic.Lib.ValueIdx

noncomputable section

/-! ## The reference's row gather, read at an element whose index is in range

The reference indexes the node-feature table by the source-index vector directly: a negative index is wrapped by
adding the table's row count, and the gather clamps the wrapped index into the table. For an index already in
`[0, 100000)` neither does anything: the result is the named row. The index vector itself is the same function of the
edge-index array as the kernel side's. -/

namespace Cert.ReferenceIdeal.SrcIndex

open Cert.ReferenceIdeal Cert.ReferenceIdeal.ReadP
open Idealize.ShloMosaic Idealize.ShloMosaic.ValueIdx

/-- The start-index column at row `e` is the wrapped index of edge `e`; a nonnegative index is not wrapped. -/
theorem col_apply_of_nonneg (x1 : (⟨S2x1600000, .i32⟩ : BufTy).Contents (Elt Ideal)) (e : Fin 1600000)
    (h0 : 0 ≤ (val_main_v1 (F := Ideal) x1 (ix1 e)).toInt) :
    val_main_v9 (F := Ideal) x1 (ix2 e (0 : Fin 1)) = val_main_v1 (F := Ideal) x1 (ix1 e) := by
  have hi : idx_main_v9 (ix2 e (0 : Fin 1)) = ix1 e := by
    funext a
    match a with
    | ⟨0, _⟩ => rfl
  rw [val_main_v9_apply, hi]
  show Scalar.select (IntOp.cmpi .slt (val_main_v1 (F := Ideal) x1 (ix1 e)) 0#32)
      (IntOp.addi (val_main_v1 (F := Ideal) x1 (ix1 e)) 100000#32) (val_main_v1 (F := Ideal) x1 (ix1 e)) = _
  have hc : ¬ IntOp.cmpi .slt (val_main_v1 (F := Ideal) x1 (ix1 e)) 0#32 = 1#1 := fun hc => by
    have := IntOp.cmpi_slt.1 hc
    have hz : (0#32 : BitVec 32).toInt = 0 := by decide
    omega
  exact if_neg hc

/-- At an edge whose source index is in `[0, 100000)` the reference's gather reads the row the index names: the wrap
    is the identity and the gather's clamp does nothing. -/
theorem refGather_apply (x0 : (⟨S100000x64, .f32⟩ : BufTy).Contents (Elt Ideal)) (x1 : (⟨S2x1600000, .i32⟩ : BufTy).Contents (Elt Ideal))
    (e : Fin 1600000) (k : Fin 64) (h0 : 0 ≤ (val_main_v1 (F := Ideal) x1 (ix1 e)).toInt)
    (h1 : (val_main_v1 (F := Ideal) x1 (ix1 e)).toInt < 100000) :
    val_main_v10 (F := Ideal) x0 x1 (ix2 e k)
      = x0 (ix2 (⟨(val_main_v1 (F := Ideal) x1 (ix1 e)).toInt.toNat, by omega⟩ : Fin 100000) k) := by
  have hcol := col_apply_of_nonneg x1 e h0
  unfold val_main_v10
  rw [Cert.LibGatherRows.gather_rows_apply_of_inRange gather_S100000x64_S1600000x1_S1600000x64_1_0_n_n_0_1_164
    rfl rfl rfl rfl rfl rfl rfl x0 (val_main_v9 (F := Ideal) x1) e k (by rw [hcol]; exact h0) (by rw [hcol]; exact h1)]
  exact congrArg x0 (congrArg (fun a => ix2 a k) (Fin.ext (congrArg (fun w : BitVec 32 => w.toInt.toNat) hcol)))

/-- The reference's source-index vector is the kernel side's: the same slice and reshape of the same array, the two
    programs' shape names standing for the same literal shapes. -/
theorem srcWords_eq_ref (x1 : IVec Cert.KernelIdeal.S2x1600000 32) :
    val_main_v1 (F := Ideal) x1 = Cert.KernelIdeal.SrcIndex.srcWords x1 := rfl

end Cert.ReferenceIdeal.SrcIndex

end
-- ==== Proof.RefStages.lean ====
/-
  The reference program's two perceptrons read at an index, on the extended reals.

  Stage 27 (the messages) at (e, j) and stage 68 (the result) at (n, j) are written out in the terms of the shared
  specification. The reference joins the two input rows of a perceptron into one row and multiplies that row by the
  whole first weight matrix in a single sum over the joined columns; the specification keeps the two rows apart and
  has one sum for each, against the matching rows of the weight matrix. The step between the two is the split of a
  sum over 64 + 32 (for the result: 64 + 64) columns into the sum over the first piece's columns plus the sum over
  the second's. Addition on the extended reals is commutative and associative, so the split needs no finiteness, and
  nothing is distributed. A sum on the host is its initial value, the zero word, plus the sum of the terms. The gather
  (stage 10) and the scatter-add (stage 30) stay closed: they appear as they are on both sides.
-/
import proofs.«429976_j35399120454035_2_alg».proof.Proof.RefRead
import proofs.«429976_j35399120454035_2_alg».proof.Proof.Spec

noncomputable section

namespace Cert.ReferenceIdeal.RefStages

open Cert.ReferenceIdeal Cert.ReferenceIdeal.Gen Cert.ReferenceIdeal.ReadP Idealize.ShloMosaic Idealize.ShloMosaic.ValueIdx
open scoped BigOperators

/-! ## Joined columns

A column of a joined row of 64 + B entries is either column k of the first piece or column 64 + k of the second. -/

/-- Column k of the first piece, among the 96 joined columns. -/
abbrev lo96 (k : Fin 64) : Fin 96 := ⟨k.val, by have := k.isLt; omega⟩
/-- Column k of the second piece (32 wide), among the 96 joined columns. -/
abbrev hi96 (k : Fin 32) : Fin 96 := ⟨64 + k.val, by have := k.isLt; omega⟩
/-- Column k of the first piece, among the 128 joined columns. -/
abbrev lo128 (k : Fin 64) : Fin 128 := ⟨k.val, by have := k.isLt; omega⟩
/-- Column k of the second piece (64 wide), among the 128 joined columns. -/
abbrev hi128 (k : Fin 64) : Fin 128 := ⟨64 + k.val, by have := k.isLt; omega⟩

/-- A sum over the 96 joined columns is the sum over the first 64 plus the sum over the last 32. -/
theorem sum96 (f : Fin 96 → EReal) :
    ∑ k, f k = (∑ k : Fin 64, f (lo96 k)) + ∑ k : Fin 32, f (hi96 k) :=
  Cert.Spec.sum_split (A := 64) (B := 32) f

/-- A sum over the 128 joined columns is the sum over the first 64 plus the sum over the last 64. -/
theorem sum128 (f : Fin 128 → EReal) :
    ∑ k, f k = (∑ k : Fin 64, f (lo128 k)) + ∑ k : Fin 64, f (hi128 k) :=
  Cert.Spec.sum_split (A := 64) (B := 64) f

/-- A row of 64 joined with a row of 32, read at a column of the first piece. -/
theorem cat96_left (v : S1600000x64.Idx → EReal) (w : S1600000x32.Idx → EReal)
    (h : Shape.Concatenates [S1600000x64, S1600000x32] S1600000x96 1) (e : Fin 1600000) (k : Fin 64) :
    concatenate S1600000x96 1 [⟨S1600000x64, v⟩, ⟨S1600000x32, w⟩] h (ix2 e (lo96 k)) = v (ix2 e k) :=
  concatenate_pair_apply_left 1 v w h (ix2 e (lo96 k)) rfl (ix2 e k)
    (fun b => match b with | ⟨0, _⟩ => rfl | ⟨1, _⟩ => rfl)

/-- A row of 64 joined with a row of 32, read at a column of the second piece. -/
theorem cat96_right (v : S1600000x64.Idx → EReal) (w : S1600000x32.Idx → EReal)
    (h : Shape.Concatenates [S1600000x64, S1600000x32] S1600000x96 1) (e : Fin 1600000) (k : Fin 32) :
    concatenate S1600000x96 1 [⟨S1600000x64, v⟩, ⟨S1600000x32, w⟩] h (ix2 e (hi96 k)) = w (ix2 e k) :=
  concatenate_pair_apply_right 1 v w h (ix2 e (hi96 k)) rfl rfl (ix2 e k)
    (fun b => match b with
      | ⟨0, _⟩ => fun _ => rfl
      | ⟨1, _⟩ => fun hne => (hne (Fin.ext rfl)).elim)
    (show k.val + 64 = 64 + k.val from Nat.add_comm _ _)

/-- A row of 64 joined with a row of 64, read at a column of the first piece. -/
theorem cat128_left (v w : S100000x64.Idx → EReal)
    (h : Shape.Concatenates [S100000x64, S100000x64] S100000x128 1) (n : Fin 100000) (k : Fin 64) :
    concatenate S100000x128 1 [⟨S100000x64, v⟩, ⟨S100000x64, w⟩] h (ix2 n (lo128 k)) = v (ix2 n k) :=
  concatenate_pair_apply_left 1 v w h (ix2 n (lo128 k)) rfl (ix2 n k)
    (fun b => match b with | ⟨0, _⟩ => rfl | ⟨1, _⟩ => rfl)

/-- A row of 64 joined with a row of 64, read at a column of the second piece. -/
theorem cat128_right (v w : S100000x64.Idx → EReal)
    (h : Shape.Concatenates [S100000x64, S100000x64] S100000x128 1) (n : Fin 100000) (k : Fin 64) :
    concatenate S100000x128 1 [⟨S100000x64, v⟩, ⟨S100000x64, w⟩] h (ix2 n (hi128 k)) = w (ix2 n k) :=
  concatenate_pair_apply_right 1 v w h (ix2 n (hi128 k)) rfl rfl (ix2 n k)
    (fun b => match b with
      | ⟨0, _⟩ => fun _ => rfl
      | ⟨1, _⟩ => fun hne => (hne (Fin.ext rfl)).elim)
    (show k.val + 64 = 64 + k.val from Nat.add_comm _ _)

/-! ## Where each stage reads its operands

The index a stage reads an operand at, for an output index given by its coordinates. -/

theorem lidx12 (e : Fin 1600000) (j : Fin 64) (k : Fin 96) : lidx_main_v12 (ix2 e j) k = ix2 e k :=
  funext fun a => Fin.ext (by match a with | ⟨0, _⟩ => rfl | ⟨1, _⟩ => rfl)
theorem ridx12 (e : Fin 1600000) (j : Fin 64) (k : Fin 96) : ridx_main_v12 (ix2 e j) k = ix2 k j :=
  funext fun a => Fin.ext (by match a with | ⟨0, _⟩ => rfl | ⟨1, _⟩ => rfl)
theorem bidx14 (e : Fin 1600000) (j : Fin 64) : idx_main_v13 (idx_main_v14 (ix2 e j)) = ix1 j :=
  funext fun a => Fin.ext (by match a with | ⟨0, _⟩ => rfl)
theorem lidx21 (e : Fin 1600000) (j k : Fin 64) : lidx_main_v21 (ix2 e j) k = ix2 e k :=
  funext fun a => Fin.ext (by match a with | ⟨0, _⟩ => rfl | ⟨1, _⟩ => rfl)
theorem ridx21 (e : Fin 1600000) (j k : Fin 64) : ridx_main_v21 (ix2 e j) k = ix2 k j :=
  funext fun a => Fin.ext (by match a with | ⟨0, _⟩ => rfl | ⟨1, _⟩ => rfl)
theorem bidx23 (e : Fin 1600000) (j : Fin 64) : idx_main_v22 (idx_main_v23 (ix2 e j)) = ix1 j :=
  funext fun a => Fin.ext (by match a with | ⟨0, _⟩ => rfl)
theorem widx26 (e : Fin 1600000) (j : Fin 64) : idx_main_v25 (idx_main_v26 (ix2 e j)) = ix1 e :=
  funext fun a => Fin.ext (by match a with | ⟨0, _⟩ => rfl)

theorem lidx32 (n : Fin 100000) (j : Fin 64) (k : Fin 128) : lidx_main_v32 (ix2 n j) k = ix2 n k :=
  funext fun a => Fin.ext (by match a with | ⟨0, _⟩ => rfl | ⟨1, _⟩ => rfl)
theorem ridx32 (n : Fin 100000) (j : Fin 64) (k : Fin 128) : ridx_main_v32 (ix2 n j) k = ix2 k j :=
  funext fun a => Fin.ext (by match a with | ⟨0, _⟩ => rfl | ⟨1, _⟩ => rfl)
theorem bidx34 (n : Fin 100000) (j : Fin 64) : idx_main_v33 (idx_main_v34 (ix2 n j)) = ix1 j :=
  funext fun a => Fin.ext (by match a with | ⟨0, _⟩ => rfl)
theorem idx36 (n : Fin 100000) (k : Fin 64) : idx_main_v36 (idx_main_v37 (ix2 n (0 : Fin 1))) k = ix2 n k :=
  funext fun a => Fin.ext (by match a with | ⟨0, _⟩ => rfl | ⟨1, _⟩ => rfl)
theorem idx40 (n : Fin 100000) (j : Fin 64) : idx_main_v40 (ix2 n j) = ix2 n (0 : Fin 1) :=
  funext fun a => Fin.ext (by match a with | ⟨0, _⟩ => rfl | ⟨1, _⟩ => rfl)
theorem idx43 (n : Fin 100000) (k : Fin 64) : idx_main_v43 (idx_main_v44 (ix2 n (0 : Fin 1))) k = ix2 n k :=
  funext fun a => Fin.ext (by match a with | ⟨0, _⟩ => rfl | ⟨1, _⟩ => rfl)
theorem idx47 (n : Fin 100000) (j : Fin 64) : idx_main_v47 (ix2 n j) = ix2 n (0 : Fin 1) :=
  funext fun a => Fin.ext (by match a with | ⟨0, _⟩ => rfl | ⟨1, _⟩ => rfl)
theorem idx52 (n : Fin 100000) (j : Fin 64) : idx_main_v52 (ix2 n j) = ix2 n (0 : Fin 1) :=
  funext fun a => Fin.ext (by match a with | ⟨0, _⟩ => rfl | ⟨1, _⟩ => rfl)
theorem gidx55 (n : Fin 100000) (j : Fin 64) : idx_main_v54 (idx_main_v55 (ix2 n j)) = ix1 j :=
  funext fun a => Fin.ext (by match a with | ⟨0, _⟩ => rfl)
theorem bidx58 (n : Fin 100000) (j : Fin 64) : idx_main_v57 (idx_main_v58 (ix2 n j)) = ix1 j :=
  funext fun a => Fin.ext (by match a with | ⟨0, _⟩ => rfl)
theorem lidx65 (n : Fin 100000) (j k : Fin 64) : lidx_main_v65 (ix2 n j) k = ix2 n k :=
  funext fun a => Fin.ext (by match a with | ⟨0, _⟩ => rfl | ⟨1, _⟩ => rfl)
theorem ridx65 (n : Fin 100000) (j k : Fin 64) : ridx_main_v65 (ix2 n j) k = ix2 k j :=
  funext fun a => Fin.ext (by match a with | ⟨0, _⟩ => rfl | ⟨1, _⟩ => rfl)
theorem bidx67 (n : Fin 100000) (j : Fin 64) : idx_main_v66 (idx_main_v67 (ix2 n j)) = ix1 j :=
  funext fun a => Fin.ext (by match a with | ⟨0, _⟩ => rfl)

variable (x0 : (⟨S100000x64, .f32⟩ : BufTy).Contents (Elt Ideal)) (x1 : (⟨S2x1600000, .i32⟩ : BufTy).Contents (Elt Ideal))
  (x2 : (⟨S1600000x32, .f32⟩ : BufTy).Contents (Elt Ideal)) (x3 : (⟨S1600000, .f32⟩ : BufTy).Contents (Elt Ideal))
  (x4 : (⟨S96x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S128x64, .f32⟩ : BufTy).Contents (Elt Ideal)) (x9 x10 x11 : (⟨S64, .f32⟩ : BufTy).Contents (Elt Ideal))
  (x12 : (⟨S64x64, .f32⟩ : BufTy).Contents (Elt Ideal)) (x13 : (⟨S64, .f32⟩ : BufTy).Contents (Elt Ideal))

/-! ## The messages (stages 11 to 27) -/

/-- The joined row of an edge at a column of the gathered node row. -/
theorem cat1_left (e : Fin 1600000) (k : Fin 64) :
    val_main_v11 (F := Ideal) x0 x1 x2 (ix2 e (lo96 k)) = val_main_v10 (F := Ideal) x0 x1 (ix2 e k) := by
  unfold val_main_v11
  exact cat96_left _ _ _ e k

/-- The joined row of an edge at a column of the attribute row. -/
theorem cat1_right (e : Fin 1600000) (k : Fin 32) :
    val_main_v11 (F := Ideal) x0 x1 x2 (ix2 e (hi96 k)) = x2 (ix2 e k) := by
  unfold val_main_v11
  exact cat96_right _ _ _ e k

/-- Rows 0 to 63 of the first weight matrix of the message perceptron. -/
theorem rows4_lo (k j : Fin 64) : x4 (ix2 (lo96 k) j) = Cert.Spec.rowsFrom 0 (by decide) x4 k j := by
  unfold Cert.Spec.rowsFrom
  exact congrArg (fun r => x4 (ix2 r j)) (Fin.ext (Nat.zero_add k.val).symm)

/-- Rows 64 to 95 of the first weight matrix of the message perceptron. -/
theorem rows4_hi (k : Fin 32) (j : Fin 64) : x4 (ix2 (hi96 k) j) = Cert.Spec.rowsFrom 64 (by decide) x4 k j := rfl

/-- The hidden layer before the rectifier (stage 15): one sum over the joined row is the two sums of the specification. -/
theorem hid_ref (e : Fin 1600000) (j : Fin 64) :
    val_main_v15 (F := Ideal) x0 x1 x2 x4 x5 (ix2 e j)
      = Cert.Spec.lin2 (fun k => val_main_v10 (F := Ideal) x0 x1 (ix2 e k)) (fun k => x2 (ix2 e k))
          (Cert.Spec.rowsFrom 0 (by decide) x4) (Cert.Spec.rowsFrom 64 (by decide) x4) (fun j => x5 (ix1 j)) j := by
  rw [val_main_v15_apply, val_main_v12_apply, val_main_v14_apply, val_main_v13_apply, bidx14, Ideal.addf_def, sum96]
  unfold Cert.Spec.lin2
  refine congrArg (· + x5 (ix1 j)) (congrArg₂ (· + ·) (Finset.sum_congr rfl fun k _ => ?_) (Finset.sum_congr rfl fun k _ => ?_))
  · rw [lidx12, ridx12, cat1_left, rows4_lo x4]
  · rw [lidx12, ridx12, cat1_right, rows4_hi x4]

/-- The rectifier of the message perceptron (stage 20). -/
theorem act1_ref (e : Fin 1600000) (j : Fin 64) :
    val_main_v20 (F := Ideal) x0 x1 x2 x4 x5 (ix2 e j) = Cert.Spec.leaky (val_main_v15 (F := Ideal) x0 x1 x2 x4 x5 (ix2 e j)) := by
  rw [val_main_v20_apply, val_main_v17_apply, val_main_v19_apply, val_main_v16_apply, val_main_v18_apply,
    val_main_cst_apply, val_main_cst_1_apply]
  generalize val_main_v15 (F := Ideal) x0 x1 x2 x4 x5 (ix2 e j) = y
  rfl

/-- The second layer of the message perceptron (stage 24). -/
theorem lin_ref (e : Fin 1600000) (j : Fin 64) :
    val_main_v24 (F := Ideal) x0 x1 x2 x4 x5 x6 x7 (ix2 e j)
      = Cert.Spec.lin1 (fun k => val_main_v20 (F := Ideal) x0 x1 x2 x4 x5 (ix2 e k)) (fun k j => x6 (ix2 k j)) (fun j => x7 (ix1 j)) j := by
  rw [val_main_v24_apply, val_main_v21_apply, val_main_v23_apply, val_main_v22_apply, bidx23, Ideal.addf_def]
  unfold Cert.Spec.lin1
  refine congrArg (· + x7 (ix1 j)) (Finset.sum_congr rfl fun k _ => ?_)
  rw [lidx21, ridx21]

/-- messages: stage 27 at (e, j) -/
theorem msg_ref (e : Fin 1600000) (j : Fin 64) :
    val_main_v27 (F := Ideal) x0 x1 x2 x3 x4 x5 x6 x7 (ix2 e j)
      = Cert.Spec.edgeMsg (fun k => val_main_v10 (F := Ideal) x0 x1 (ix2 e k)) (fun k => x2 (ix2 e k)) (x3 (ix1 e))
          (Cert.Spec.rowsFrom 0 (by decide) x4) (Cert.Spec.rowsFrom 64 (by decide) x4) (fun j => x5 (ix1 j)) (fun k j => x6 (ix2 k j)) (fun j => x7 (ix1 j)) j := by
  rw [val_main_v27_apply, val_main_v26_apply, val_main_v25_apply, widx26, Ideal.mulf_def, lin_ref]
  unfold Cert.Spec.edgeMsg
  refine congrArg (· * x3 (ix1 e)) (congrArg (fun h => Cert.Spec.lin1 h _ _ j) (funext fun k => ?_))
  rw [act1_ref, hid_ref]

/-! ## The result (stages 31 to 68) -/

/-- The joined row of a node at a column of the node's own row. -/
theorem cat2_left (n : Fin 100000) (k : Fin 64) :
    val_main_v31 (F := Ideal) x0 x1 x2 x3 x4 x5 x6 x7 (ix2 n (lo128 k)) = x0 (ix2 n k) := by
  unfold val_main_v31
  exact cat128_left _ _ _ n k

/-- The joined row of a node at a column of the summed messages. -/
theorem cat2_right (n : Fin 100000) (k : Fin 64) :
    val_main_v31 (F := Ideal) x0 x1 x2 x3 x4 x5 x6 x7 (ix2 n (hi128 k)) = val_main_v30 (F := Ideal) x0 x1 x2 x3 x4 x5 x6 x7 (ix2 n k) := by
  unfold val_main_v31
  exact cat128_right _ _ _ n k

/-- Rows 0 to 63 of the first weight matrix of the update perceptron. -/
theorem rows8_lo (k j : Fin 64) : x8 (ix2 (lo128 k) j) = Cert.Spec.rowsFrom 0 (by decide) x8 k j := by
  unfold Cert.Spec.rowsFrom
  exact congrArg (fun r => x8 (ix2 r j)) (Fin.ext (Nat.zero_add k.val).symm)

/-- Rows 64 to 127 of the first weight matrix of the update perceptron. -/
theorem rows8_hi (k j : Fin 64) : x8 (ix2 (hi128 k) j) = Cert.Spec.rowsFrom 64 (by decide) x8 k j := rfl

/-- The hidden layer before the normalisation (stage 35): one sum over the joined row is the two sums of the specification. -/
theorem pre_ref (n : Fin 100000) (j : Fin 64) :
    val_main_v35 (F := Ideal) x0 x1 x2 x3 x4 x5 x6 x7 x8 x9 (ix2 n j)
      = Cert.Spec.lin2 (fun k => x0 (ix2 n k)) (fun k => val_main_v30 (F := Ideal) x0 x1 x2 x3 x4 x5 x6 x7 (ix2 n k))
          (Cert.Spec.rowsFrom 0 (by decide) x8) (Cert.Spec.rowsFrom 64 (by decide) x8) (fun j => x9 (ix1 j)) j := by
  rw [val_main_v35_apply, val_main_v32_apply, val_main_v34_apply, val_main_v33_apply, bidx34, Ideal.addf_def, sum128]
  unfold Cert.Spec.lin2
  refine congrArg (· + x9 (ix1 j)) (congrArg₂ (· + ·) (Finset.sum_congr rfl fun k _ => ?_) (Finset.sum_congr rfl fun k _ => ?_))
  · rw [lidx32, ridx32, cat2_left, rows8_lo x8]
  · rw [lidx32, ridx32, cat2_right, rows8_hi x8]

/-- The mean of a hidden row (stage 39): the zero word plus the sum of the row, divided by the word of 64. -/
theorem mean_ref (n : Fin 100000) :
    val_main_v39 (F := Ideal) x0 x1 x2 x3 x4 x5 x6 x7 x8 x9 (ix2 n (0 : Fin 1)) = Cert.Spec.mean64 (fun k => val_main_v35 (F := Ideal) x0 x1 x2 x3 x4 x5 x6 x7 x8 x9 (ix2 n k)) := by
  rw [val_main_v39_apply, val_main_v37_apply, val_main_v36_apply, val_main_v38_apply, val_main_cst_3_apply,
    val_main_cst_4_apply, Ideal.hostDivf_def]
  refine congrArg₂ Ideal.div ?_ rfl
  rw [Ideal.ofBits_def, Ideal.ofBits_zero_f32, zero_add]
  exact Finset.sum_congr rfl fun k _ => by rw [idx36]

/-- A hidden row less its mean (stage 41, the copy the variance is taken of). -/
theorem cen_ref (n : Fin 100000) (j : Fin 64) :
    val_main_v41 (F := Ideal) x0 x1 x2 x3 x4 x5 x6 x7 x8 x9 (ix2 n j) = val_main_v35 (F := Ideal) x0 x1 x2 x3 x4 x5 x6 x7 x8 x9 (ix2 n j) - Cert.Spec.mean64 (fun k => val_main_v35 (F := Ideal) x0 x1 x2 x3 x4 x5 x6 x7 x8 x9 (ix2 n k)) := by
  rw [val_main_v41_apply, val_main_v40_apply, idx40, mean_ref, Ideal.subf_def]

/-- A hidden row less its mean (stage 48, the copy that is normalised). -/
theorem cen2_ref (n : Fin 100000) (j : Fin 64) :
    val_main_v48 (F := Ideal) x0 x1 x2 x3 x4 x5 x6 x7 x8 x9 (ix2 n j) = val_main_v35 (F := Ideal) x0 x1 x2 x3 x4 x5 x6 x7 x8 x9 (ix2 n j) - Cert.Spec.mean64 (fun k => val_main_v35 (F := Ideal) x0 x1 x2 x3 x4 x5 x6 x7 x8 x9 (ix2 n k)) := by
  rw [val_main_v48_apply, val_main_v47_apply, idx47, mean_ref, Ideal.subf_def]

/-- The variance of a hidden row (stage 46): the mean of the squares of the row less its mean. -/
theorem var_ref (n : Fin 100000) :
    val_main_v46 (F := Ideal) x0 x1 x2 x3 x4 x5 x6 x7 x8 x9 (ix2 n (0 : Fin 1))
      = Cert.Spec.mean64 (fun k => (val_main_v35 (F := Ideal) x0 x1 x2 x3 x4 x5 x6 x7 x8 x9 (ix2 n k) - Cert.Spec.mean64 (fun k => val_main_v35 (F := Ideal) x0 x1 x2 x3 x4 x5 x6 x7 x8 x9 (ix2 n k)))
          * (val_main_v35 (F := Ideal) x0 x1 x2 x3 x4 x5 x6 x7 x8 x9 (ix2 n k) - Cert.Spec.mean64 (fun k => val_main_v35 (F := Ideal) x0 x1 x2 x3 x4 x5 x6 x7 x8 x9 (ix2 n k)))) := by
  rw [val_main_v46_apply, val_main_v44_apply, val_main_v43_apply, val_main_v45_apply, val_main_cst_5_apply,
    val_main_cst_6_apply, Ideal.hostDivf_def]
  refine congrArg₂ Ideal.div ?_ rfl
  rw [Ideal.ofBits_def, Ideal.ofBits_zero_f32, zero_add]
  exact Finset.sum_congr rfl fun k _ => by rw [idx43, val_main_v42_apply, cen_ref, Ideal.mulf_def]

/-- The normalised hidden row (stage 59). -/
theorem norm_ref (n : Fin 100000) (j : Fin 64) :
    val_main_v59 (F := Ideal) x0 x1 x2 x3 x4 x5 x6 x7 x8 x9 x10 x11 (ix2 n j)
      = Cert.Spec.lnorm (fun k => val_main_v35 (F := Ideal) x0 x1 x2 x3 x4 x5 x6 x7 x8 x9 (ix2 n k)) (fun j => x10 (ix1 j)) (fun j => x11 (ix1 j)) j := by
  rw [val_main_v59_apply, val_main_v56_apply, val_main_v58_apply, val_main_v57_apply, bidx58, val_main_v55_apply,
    val_main_v54_apply, gidx55, val_main_v53_apply, val_main_v52_apply, idx52, val_main_v51_apply, val_main_v50_apply,
    val_main_v49_apply, val_main_cst_7_apply, var_ref, cen2_ref]
  rfl

/-- The rectifier of the update perceptron (stage 64). -/
theorem act2_ref (n : Fin 100000) (j : Fin 64) :
    val_main_v64 (F := Ideal) x0 x1 x2 x3 x4 x5 x6 x7 x8 x9 x10 x11 (ix2 n j) = Cert.Spec.leaky (val_main_v59 (F := Ideal) x0 x1 x2 x3 x4 x5 x6 x7 x8 x9 x10 x11 (ix2 n j)) := by
  rw [val_main_v64_apply, val_main_v61_apply, val_main_v63_apply, val_main_v60_apply, val_main_v62_apply,
    val_main_cst_8_apply, val_main_cst_9_apply]
  generalize val_main_v59 (F := Ideal) x0 x1 x2 x3 x4 x5 x6 x7 x8 x9 x10 x11 (ix2 n j) = y
  rfl

/-- the result: stage 68 at (n, j), over the scatter's result (stage 30) left as it is -/
theorem out_ref (n : Fin 100000) (j : Fin 64) :
    val_main_v68 (F := Ideal) x0 x1 x2 x3 x4 x5 x6 x7 x8 x9 x10 x11 x12 x13 (ix2 n j)
      = Cert.Spec.updOut (fun k => x0 (ix2 n k)) (fun k => val_main_v30 (F := Ideal) x0 x1 x2 x3 x4 x5 x6 x7 (ix2 n k))
          (Cert.Spec.rowsFrom 0 (by decide) x8) (Cert.Spec.rowsFrom 64 (by decide) x8) (fun j => x9 (ix1 j)) (fun j => x10 (ix1 j)) (fun j => x11 (ix1 j)) (fun k j => x12 (ix2 k j)) (fun j => x13 (ix1 j)) j := by
  rw [val_main_v68_apply, val_main_v65_apply, val_main_v67_apply, val_main_v66_apply, bidx67, Ideal.addf_def]
  unfold Cert.Spec.updOut Cert.Spec.lin1
  refine congrArg (· + x13 (ix1 j)) (Finset.sum_congr rfl fun k _ => ?_)
  rw [lidx65, ridx65, act2_ref, norm_ref]
  refine congrArg (fun z => Cert.Spec.leaky (Cert.Spec.lnorm z _ _ k) * x12 (ix2 k j)) (funext fun q => ?_)
  exact pre_ref x0 x1 x2 x3 x4 x5 x6 x7 x8 x9 n q

end Cert.ReferenceIdeal.RefStages

end
-- ==== Proof.Layout.lean ====
/-
  Three layout steps read by coordinates, as the two programs' operands meet them.

  * Rows off … off + A − 1 cut out of a matrix with 64 columns: entry (k, j) of the cut is entry (off + k, j) of the matrix.
  * A vector of n entries laid out as a row [1, n]: entry (0, j) is the vector's entry j.
  * A vector of n entries laid out as a column [n, 1]: entry (e, 0) is the vector's entry e.
-/
import proofs.«429976_j35399120454035_2_alg».proof.Proof.Spec
import proofs.«429976_j35399120454035_2_alg».proof.Proof.LibKeepdims
import Idealize.ShloMosaic.Lib.Pipeline.Value
import Idealize.ShloMosaic.Lib.ValueIdx

noncomputable section

namespace Cert.Layout

open Idealize.ShloMosaic Idealize.ShloMosaic.ValueIdx

/-- The cut of rows off … off + A − 1, at (k, j), is the matrix at (off + k, j). -/
theorem slice_rows_apply {R A : ℕ} (off : ℕ) (hle : off + A ≤ R) (W : (⟨2, ![R, 64]⟩ : Shape).Idx → EReal)
    (h : (⟨2, ![R, 64]⟩ : Shape).Slices ![off, 0] ⟨2, ![A, 64]⟩) (k : Fin A) (j : Fin 64) :
    extractStridedSlice ⟨2, ![A, 64]⟩ ![off, 0] W h (ix2 k j) = Cert.Spec.rowsFrom off hle W k j := by
  unfold Cert.Spec.rowsFrom
  refine extractStridedSlice_apply _ W h (ix2 k j) _ fun a => ?_
  match a with
  | ⟨0, _⟩ => rfl
  | ⟨1, _⟩ => show j.val = 0 + j.val; omega

/-- A vector laid out as a row reads, at (0, j), the vector at j. -/
theorem row_of_vec {α : Type} {n : ℕ} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

/-- A vector laid out as a column reads, at (e, 0), the vector at e. -/
theorem col_of_vec {α : Type} {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) :=
  Cert.LibKeepdims.shapeCast_a_a1_apply x h e 0

end Cert.Layout

end
-- ==== Proof.Bridge.lean ====
/-
  The two programs compute the same array.

  With the arguments equal and every source index naming a row of the node-feature table:
  * the kernel's take of the source rows (which would put a junk row where an index is out of range) and the
    reference's clamped gather read the same row, the index word itself;
  * so the edge perceptron's operands agree row by row, and the message arrays are equal;
  * both programs sum the messages into their destination rows with one and the same scatter of one and the same
    index column, so the summed arrays are equal;
  * so the update perceptron's operands agree row by row, and the results are equal.
  The reference multiplies a concatenated row by a whole weight matrix where the kernel multiplies the two parts by the
  matrix's upper and lower rows and adds: a finite sum split in two, on the extended reals as on any commutative
  monoid. Nothing here uses finiteness.
-/
import proofs.«429976_j35399120454035_2_alg».proof.Proof.KernelHost
import proofs.«429976_j35399120454035_2_alg».proof.Proof.KernelTake
import proofs.«429976_j35399120454035_2_alg».proof.Proof.EdgeValue
import proofs.«429976_j35399120454035_2_alg».proof.Proof.UpdValue
import proofs.«429976_j35399120454035_2_alg».proof.Proof.SrcRef
import proofs.«429976_j35399120454035_2_alg».proof.Proof.RefStages
import proofs.«429976_j35399120454035_2_alg».proof.Proof.Layout

set_option maxRecDepth 16384

noncomputable section

namespace Cert.Bridge

open Idealize.ShloMosaic Idealize.ShloMosaic.ValueIdx Idealize.ShloMosaic.TcCoe Idealize.SL.Sem

/-! ## The row maps respect equality of their operands -/

theorem edgeMsg_congr {s s' : Fin 64 → EReal} {a a' : Fin 32 → EReal} {w w' : EReal} {Wa Wa' : Fin 64 → Fin 64 → EReal}
    {Wb Wb' : Fin 32 → Fin 64 → EReal} {b1 b1' : Fin 64 → EReal} {W2 W2' : Fin 64 → Fin 64 → EReal} {b2 b2' : Fin 64 → EReal}
    (hs : s = s') (ha : a = a') (hw : w = w') (hWa : Wa = Wa') (hWb : Wb = Wb') (hb1 : b1 = b1') (hW2 : W2 = W2') (hb2 : b2 = b2')
    (j : Fin 64) : Cert.Spec.edgeMsg s a w Wa Wb b1 W2 b2 j = Cert.Spec.edgeMsg s' a' w' Wa' Wb' b1' W2' b2' j := by
  subst hs ha hw hWa hWb hb1 hW2 hb2; rfl

theorem updOut_congr {x x' g g' : Fin 64 → EReal} {Ua Ua' Ub Ub' : Fin 64 → Fin 64 → EReal} {u u' ga ga' be be' : Fin 64 → EReal}
    {U2 U2' : Fin 64 → Fin 64 → EReal} {u2 u2' : Fin 64 → EReal}
    (hx : x = x') (hg : g = g') (hUa : Ua = Ua') (hUb : Ub = Ub') (hu : u = u') (hga : ga = ga') (hbe : be = be') (hU2 : U2 = U2')
    (hu2 : u2 = u2') (j : Fin 64) :
    Cert.Spec.updOut x g Ua Ub u ga be U2 u2 j = Cert.Spec.updOut x' g' Ua' Ub' u' ga' be' U2' u2' j := by
  subst hx hg hUa hUb hu hga hbe hU2 hu2; rfl

section
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel program's argument 0 in the launch memory. -/
abbrev k0 : Cert.KernelIdeal.S100000x64.Idx → EReal := m ((c.tc : Thread Cert.KernelIdeal.nD Cert.KernelIdeal.τ).loc Cert.KernelIdeal.main_arg0)
/-- The kernel program's argument 1 in the launch memory. -/
abbrev k1 : IVec Cert.KernelIdeal.S2x1600000 32 := m ((c.tc : Thread Cert.KernelIdeal.nD Cert.KernelIdeal.τ).loc Cert.KernelIdeal.main_arg1)
/-- The kernel program's argument 2 in the launch memory. -/
abbrev k2 : Cert.KernelIdeal.S1600000x32.Idx → EReal := m ((c.tc : Thread Cert.KernelIdeal.nD Cert.KernelIdeal.τ).loc Cert.KernelIdeal.main_arg2)
/-- The kernel program's argument 3 in the launch memory. -/
abbrev k3 : Cert.KernelIdeal.S1600000.Idx → EReal := m ((c.tc : Thread Cert.KernelIdeal.nD Cert.KernelIdeal.τ).loc Cert.KernelIdeal.main_arg3)
/-- The kernel program's argument 4 in the launch memory. -/
abbrev k4 : Cert.KernelIdeal.S96x64.Idx → EReal := m ((c.tc : Thread Cert.KernelIdeal.nD Cert.KernelIdeal.τ).loc Cert.KernelIdeal.main_arg4)
/-- The kernel program's argument 5 in the launch memory. -/
abbrev k5 : Cert.KernelIdeal.S64.Idx → EReal := m ((c.tc : Thread Cert.KernelIdeal.nD Cert.KernelIdeal.τ).loc Cert.KernelIdeal.main_arg5)
/-- The kernel program's argument 6 in the launch memory. -/
abbrev k6 : Cert.KernelIdeal.S64x64.Idx → EReal := m ((c.tc : Thread Cert.KernelIdeal.nD Cert.KernelIdeal.τ).loc Cert.KernelIdeal.main_arg6)
/-- The kernel program's argument 7 in the launch memory. -/
abbrev k7 : Cert.KernelIdeal.S64.Idx → EReal := m ((c.tc : Thread Cert.KernelIdeal.nD Cert.KernelIdeal.τ).loc Cert.KernelIdeal.main_arg7)
/-- The kernel program's argument 8 in the launch memory. -/
abbrev k8 : Cert.KernelIdeal.S128x64.Idx → EReal := m ((c.tc : Thread Cert.KernelIdeal.nD Cert.KernelIdeal.τ).loc Cert.KernelIdeal.main_arg8)
/-- The kernel program's argument 9 in the launch memory. -/
abbrev k9 : Cert.KernelIdeal.S64.Idx → EReal := m ((c.tc : Thread Cert.KernelIdeal.nD Cert.KernelIdeal.τ).loc Cert.KernelIdeal.main_arg9)
/-- The kernel program's argument 10 in the launch memory. -/
abbrev k10 : Cert.KernelIdeal.S64.Idx → EReal := m ((c.tc : Thread Cert.KernelIdeal.nD Cert.KernelIdeal.τ).loc Cert.KernelIdeal.main_arg10)
/-- The kernel program's argument 11 in the launch memory. -/
abbrev k11 : Cert.KernelIdeal.S64.Idx → EReal := m ((c.tc : Thread Cert.KernelIdeal.nD Cert.KernelIdeal.τ).loc Cert.KernelIdeal.main_arg11)
/-- The kernel program's argument 12 in the launch memory. -/
abbrev k12 : Cert.KernelIdeal.S64x64.Idx → EReal := m ((c.tc : Thread Cert.KernelIdeal.nD Cert.KernelIdeal.τ).loc Cert.KernelIdeal.main_arg12)
/-- The kernel program's argument 13 in the launch memory. -/
abbrev k13 : Cert.KernelIdeal.S64.Idx → EReal := m ((c.tc : Thread Cert.KernelIdeal.nD Cert.KernelIdeal.τ).loc Cert.KernelIdeal.main_arg13)

/-! ## The messages -/

/-- Region 0's output array is the reference's message stage, entry by entry. -/
theorem msg_eq (hpre : Cert.Pre_KernelIdeal m) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000x32, .f32⟩ : BufTy).Contents (Elt Ideal)) (x3 : (⟨Cert.ReferenceIdeal.S1600000, .f32⟩ : BufTy).Contents (Elt Ideal)) (x4 : (⟨Cert.ReferenceIdeal.S96x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (h0 : x0 = k0 m c) (h1 : x1 = k1 m c) (h2 : x2 = k2 m c) (h3 : x3 = k3 m c) (h4 : x4 = k4 m c) (h5 : x5 = k5 m c) (h6 : x6 = k6 m c) (h7 : x7 = k7 m c) (e : Fin 1600000) (j : Fin 64) :
    ((Cert.KernelIdeal.Gen.dat0 (F := Ideal) (Cert.KernelIdeal.Gen.V3 m ρ) c).arrAt 8 Cert.KernelIdeal.cfg0.N : Cert.KernelIdeal.S1600000x64.Idx → EReal) (ix2 e j)
      = Cert.ReferenceIdeal.ReadP.val_main_v27 (F := Ideal) x0 x1 x2 x3 x4 x5 x6 x7 (ix2 e j) := by
  subst h0 h1 h2 h3 h4 h5 h6 h7
  rw [Cert.KernelIdeal.EdgeValue.msg_arr, Cert.ReferenceIdeal.RefStages.msg_ref]
  unfold Cert.Spec.msgArr
  have hin := Cert.KernelIdeal.SrcIndex.src_inRange m hpre c e
  refine edgeMsg_congr (funext fun k => ?_) (funext fun k => ?_) ?_ (funext fun k => funext fun j' => ?_) (funext fun k => funext fun j' => ?_)
    (funext fun j' => ?_) (funext fun k => funext fun j' => ?_) (funext fun j' => ?_) j
  · -- the source row: the take and the clamped gather read the index word's row
    refine (congrFun (Cert.KernelIdeal.Host.e0_v4 m ρ c) (ix2 e k)).trans ?_
    rw [Cert.KernelIdeal.SrcIndex.takeRows_apply _ _ e k hin.1 hin.2]
    exact (Cert.ReferenceIdeal.SrcIndex.refGather_apply (k0 m c) (k1 m c) e k hin.1 hin.2).symm
  · exact congrFun (Cert.KernelIdeal.Host.e0_arg2 m ρ c) (ix2 e k)
  · exact (congrFun (Cert.KernelIdeal.Host.e0_v7 m ρ c) (ix2 e (0 : Fin 1))).trans (Cert.Layout.col_of_vec _ _ e)
  · exact (congrFun (Cert.KernelIdeal.Host.e0_v5 m ρ c) (ix2 k j')).trans (Cert.Layout.slice_rows_apply 0 _ _ _ k j')
  · exact (congrFun (Cert.KernelIdeal.Host.e0_v6 m ρ c) (ix2 k j')).trans (Cert.Layout.slice_rows_apply 64 _ _ _ k j')
  · exact (congrFun (Cert.KernelIdeal.Host.e0_v8 m ρ c) (ix2 (0 : Fin 1) j')).trans (Cert.Layout.row_of_vec _ _ j')
  · exact congrFun (Cert.KernelIdeal.Host.e0_arg6 m ρ c) (ix2 k j')
  · exact (congrFun (Cert.KernelIdeal.Host.e0_v9 m ρ c) (ix2 (0 : Fin 1) j')).trans (Cert.Layout.row_of_vec _ _ j')

/-! ## The summed messages -/

/-- The kernel program's summed-message array at region 1's entry is the reference's scatter stage. -/
theorem agg_eq (hpre : Cert.Pre_KernelIdeal m) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000x32, .f32⟩ : BufTy).Contents (Elt Ideal)) (x3 : (⟨Cert.ReferenceIdeal.S1600000, .f32⟩ : BufTy).Contents (Elt Ideal)) (x4 : (⟨Cert.ReferenceIdeal.S96x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (h0 : x0 = k0 m c) (h1 : x1 = k1 m c) (h2 : x2 = k2 m c) (h3 : x3 = k3 m c) (h4 : x4 = k4 m c) (h5 : x5 = k5 m c) (h6 : x6 = k6 m c) (h7 : x7 = k7 m c) :
    (Cert.KernelIdeal.Gen.W5 m ρ c (Proc.devRef .tc Cert.KernelIdeal.main_v13) : Cert.KernelIdeal.S100000x64.Idx → EReal)
      = Cert.ReferenceIdeal.ReadP.val_main_v30 (F := Ideal) x0 x1 x2 x3 x4 x5 x6 x7 := by
  rw [Cert.KernelIdeal.Host.e1_v13 m ρ c]
  have hmsg : ((Cert.KernelIdeal.Gen.dat0 (F := Ideal) (Cert.KernelIdeal.Gen.V3 m ρ) c).arrAt 8 Cert.KernelIdeal.cfg0.N : Cert.KernelIdeal.S1600000x64.Idx → EReal)
      = Cert.ReferenceIdeal.ReadP.val_main_v27 (F := Ideal) x0 x1 x2 x3 x4 x5 x6 x7 :=
    funext fun i => by
      rw [eq_ix2 i]
      exact msg_eq m ρ c hpre x0 x1 x2 x3 x4 x5 x6 x7 h0 h1 h2 h3 h4 h5 h6 h7 (i 0) (i 1)
  rw [hmsg]
  subst h1
  rfl

/-! ## The result -/

/-- The kernel program's result buffer after the run is the reference's last stage. -/
theorem result_eq (hpre : Cert.Pre_KernelIdeal m) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000x32, .f32⟩ : BufTy).Contents (Elt Ideal)) (x3 : (⟨Cert.ReferenceIdeal.S1600000, .f32⟩ : BufTy).Contents (Elt Ideal)) (x4 : (⟨Cert.ReferenceIdeal.S96x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64, .f32⟩ : BufTy).Contents (Elt Ideal)) (x11 : (⟨Cert.ReferenceIdeal.S64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal))
    (h0 : x0 = k0 m c) (h1 : x1 = k1 m c) (h2 : x2 = k2 m c) (h3 : x3 = k3 m c) (h4 : x4 = k4 m c) (h5 : x5 = k5 m c) (h6 : x6 = k6 m c) (h7 : x7 = k7 m c) (h8 : x8 = k8 m c) (h9 : x9 = k9 m c) (h10 : x10 = k10 m c) (h11 : x11 = k11 m c) (h12 : x12 = k12 m c) (h13 : x13 = k13 m c) :
    Cert.ReferenceIdeal.ReadP.val_main_v68 (F := Ideal) x0 x1 x2 x3 x4 x5 x6 x7 x8 x9 x10 x11 x12 x13
      = (Cert.KernelIdeal.Gen.W6 m ρ c (Proc.devRef .tc Cert.KernelIdeal.main_v20) : Cert.KernelIdeal.S100000x64.Idx → EReal) := by
  funext i
  rw [eq_ix2 i]
  have hagg := agg_eq m ρ c hpre x0 x1 x2 x3 x4 x5 x6 x7 h0 h1 h2 h3 h4 h5 h6 h7
  subst h0 h8 h9 h10 h11 h12 h13
  refine Eq.trans (Cert.ReferenceIdeal.RefStages.out_ref (k0 m c) x1 x2 x3 x4 x5 x6 x7 (k8 m c) (k9 m c) (k10 m c) (k11 m c) (k12 m c) (k13 m c) (i 0) (i 1)) ?_
  refine Eq.trans ?_ (congrFun (Cert.KernelIdeal.Gen.W6_arr m ρ c 9) (ix2 (i 0) (i 1))).symm
  refine Eq.trans ?_ (Cert.KernelIdeal.UpdValue.upd_arr (Cert.KernelIdeal.Gen.V5 m ρ) c (i 0) (i 1)).symm
  unfold Cert.Spec.updArr
  refine updOut_congr (funext fun k => ?_) (funext fun k => ?_) (funext fun k => funext fun j' => ?_) (funext fun k => funext fun j' => ?_)
    (funext fun j' => ?_) (funext fun j' => ?_) (funext fun j' => ?_) (funext fun k => funext fun j' => ?_) (funext fun j' => ?_) (i 1)
  · exact (congrFun (Cert.KernelIdeal.Host.e1_arg0 m ρ c) (ix2 (i 0) k)).symm
  · exact (congrFun hagg (ix2 (i 0) k)).symm
  · exact ((congrFun (Cert.KernelIdeal.Host.e1_v14 m ρ c) (ix2 k j')).trans (Cert.Layout.slice_rows_apply 0 _ _ _ k j')).symm
  · exact ((congrFun (Cert.KernelIdeal.Host.e1_v15 m ρ c) (ix2 k j')).trans (Cert.Layout.slice_rows_apply 64 _ _ _ k j')).symm
  · exact ((congrFun (Cert.KernelIdeal.Host.e1_v16 m ρ c) (ix2 (0 : Fin 1) j')).trans (Cert.Layout.row_of_vec _ _ j')).symm
  · exact ((congrFun (Cert.KernelIdeal.Host.e1_v17 m ρ c) (ix2 (0 : Fin 1) j')).trans (Cert.Layout.row_of_vec _ _ j')).symm
  · exact ((congrFun (Cert.KernelIdeal.Host.e1_v18 m ρ c) (ix2 (0 : Fin 1) j')).trans (Cert.Layout.row_of_vec _ _ j')).symm
  · exact (congrFun (Cert.KernelIdeal.Host.e1_arg12 m ρ c) (ix2 k j')).symm
  · exact ((congrFun (Cert.KernelIdeal.Host.e1_v19 m ρ c) (ix2 (0 : Fin 1) j')).trans (Cert.Layout.row_of_vec _ _ j')).symm

end

end Cert.Bridge

end
-- ==== Proof.RefStretch.lean ====
/-
  The reference program's last buffer, read back through the fold of its 81 operations in two stretches.

  The program is 81 host operations in a row. Every weakly fair execution runs them in order and ends with each buffer
  at the fold of the operations over the launch memory. The last buffer is read back through the fold in two steps,
  cut where the layer normalisation begins: operations 1–41 leave the pre-normalisation array (stage 35) and touch no
  argument; operations 42–81 compute the result from that array and four arguments. Read in one piece the result's
  term repeats the whole first stretch once for every use of the pre-normalisation array (ten of them); cut there,
  each stretch is read once.
-/
import proofs.«429976_j35399120454035_2_alg».proof.Proof.RefRun
import proofs.«429976_j35399120454035_2_alg».proof.Proof.RefRead
import Idealize.ShloMosaic.Lib.Pipeline.Frame

noncomputable section

namespace Cert.ReferenceIdeal.RunS

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 4000000 in
/-- The first stretch leaves the pre-normalisation array at its stage. -/
theorem stretchA (W : Valuation τ sig (Elt F)) :
    after opsA W (Proc.devRef .tc main_v35)
      = val_main_v35 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6))
          (W (Proc.devRef .tc main_arg7)) (W (Proc.devRef .tc main_arg8)) (W (Proc.devRef .tc main_arg9)) := by
  after_results_simp <;> rfl

set_option maxRecDepth 8192 in
set_option maxHeartbeats 4000000 in
/-- The first stretch writes no argument. -/
theorem stretchA_arg (W : Valuation τ sig (Elt F)) (a : Ref sig .tc)
    (ha : a = main_arg10 ∨ a = main_arg11 ∨ a = main_arg12 ∨ a = main_arg13) :
    after opsA W (Proc.devRef .tc a) = W (Proc.devRef .tc a) := by
  rcases ha with rfl | rfl | rfl | rfl <;> (after_results_simp <;> rfl)

set_option maxRecDepth 8192 in
set_option maxHeartbeats 8000000 in
/-- The whole list leaves the result at its last stage. -/
theorem result_stage (W : Valuation τ sig (Elt F)) :
    after ops W (Proc.devRef .tc main_v68)
      = val_main_v68 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6))
          (W (Proc.devRef .tc main_arg7)) (W (Proc.devRef .tc main_arg8)) (W (Proc.devRef .tc main_arg9)) (W (Proc.devRef .tc main_arg10))
          (W (Proc.devRef .tc main_arg11)) (W (Proc.devRef .tc main_arg12)) (W (Proc.devRef .tc main_arg13)) := by
  rw [ops_split, StableHlo.after_append]
  have h35 := stretchA (F := F) W
  have h10 := stretchA_arg (F := F) W main_arg10 (.inl rfl)
  have h11 := stretchA_arg (F := F) W main_arg11 (.inr (.inl rfl))
  have h12 := stretchA_arg (F := F) W main_arg12 (.inr (.inr (.inl rfl)))
  have h13 := stretchA_arg (F := F) W main_arg13 (.inr (.inr (.inr rfl)))
  generalize after opsA W = W1 at h35 h10 h11 h12 h13 ⊢
  after_results_simp
  rw [h35, h10, h11, h12, h13]
  rfl

end Cert.ReferenceIdeal.RunS

end
-- ==== Proof.RefKept.lean ====
/-
  No operation of the reference program writes an argument: after the 81 operations each argument buffer holds what it
  held before them. (Each operation writes exactly its own result buffer, and no result buffer is an argument.)
-/
import proofs.«429976_j35399120454035_2_alg».proof.Proof.RefRun

noncomputable section

namespace Cert.ReferenceIdeal.RunS

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 1000000 in
theorem kept_arg0 (W : Valuation τ sig (Elt F)) : after ops W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg1 (W : Valuation τ sig (Elt F)) : after ops W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg2 (W : Valuation τ sig (Elt F)) : after ops W (Proc.devRef .tc main_arg2) = W (Proc.devRef .tc main_arg2) :=
  after_of_forall_not_mem (b := Proc.devRef .tc main_arg2) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg3 (W : Valuation τ sig (Elt F)) : after ops W (Proc.devRef .tc main_arg3) = W (Proc.devRef .tc main_arg3) :=
  after_of_forall_not_mem (b := Proc.devRef .tc main_arg3) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg4 (W : Valuation τ sig (Elt F)) : after ops W (Proc.devRef .tc main_arg4) = W (Proc.devRef .tc main_arg4) :=
  after_of_forall_not_mem (b := Proc.devRef .tc main_arg4) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg5 (W : Valuation τ sig (Elt F)) : after ops W (Proc.devRef .tc main_arg5) = W (Proc.devRef .tc main_arg5) :=
  after_of_forall_not_mem (b := Proc.devRef .tc main_arg5) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg6 (W : Valuation τ sig (Elt F)) : after ops W (Proc.devRef .tc main_arg6) = W (Proc.devRef .tc main_arg6) :=
  after_of_forall_not_mem (b := Proc.devRef .tc main_arg6) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg7 (W : Valuation τ sig (Elt F)) : after ops W (Proc.devRef .tc main_arg7) = W (Proc.devRef .tc main_arg7) :=
  after_of_forall_not_mem (b := Proc.devRef .tc main_arg7) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg8 (W : Valuation τ sig (Elt F)) : after ops W (Proc.devRef .tc main_arg8) = W (Proc.devRef .tc main_arg8) :=
  after_of_forall_not_mem (b := Proc.devRef .tc main_arg8) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg9 (W : Valuation τ sig (Elt F)) : after ops W (Proc.devRef .tc main_arg9) = W (Proc.devRef .tc main_arg9) :=
  after_of_forall_not_mem (b := Proc.devRef .tc main_arg9) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg10 (W : Valuation τ sig (Elt F)) : after ops W (Proc.devRef .tc main_arg10) = W (Proc.devRef .tc main_arg10) :=
  after_of_forall_not_mem (b := Proc.devRef .tc main_arg10) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg11 (W : Valuation τ sig (Elt F)) : after ops W (Proc.devRef .tc main_arg11) = W (Proc.devRef .tc main_arg11) :=
  after_of_forall_not_mem (b := Proc.devRef .tc main_arg11) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg12 (W : Valuation τ sig (Elt F)) : after ops W (Proc.devRef .tc main_arg12) = W (Proc.devRef .tc main_arg12) :=
  after_of_forall_not_mem (b := Proc.devRef .tc main_arg12) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

set_option maxRecDepth 8192 in
set_option maxHeartbeats 1000000 in
theorem kept_arg13 (W : Valuation τ sig (Elt F)) : after ops W (Proc.devRef .tc main_arg13) = W (Proc.devRef .tc main_arg13) :=
  after_of_forall_not_mem (b := Proc.devRef .tc main_arg13) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

end Cert.ReferenceIdeal.RunS

end
-- ==== Proof.RefRunS.lean ====
/-
  The reference program's run.

  The program is 81 host operations in a row on one device. Every weakly fair execution runs them in order, terminates,
  and ends with every buffer at the fold of the operations over the launch memory. Read back through the fold, the
  result buffer holds the last stage of the arguments (the two-stretch reading) and every argument buffer holds what it
  held at launch (no operation writes one).
-/
import proofs.«429976_j35399120454035_2_alg».proof.Proof.RefStretch
import proofs.«429976_j35399120454035_2_alg».proof.Proof.RefKept

noncomputable section

namespace Cert.ReferenceIdeal.RunS

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 4000000 in
/-- On every device, from any memory with zero counters: every weakly fair execution of the reference terminates with
    the result at its last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v68).trans (result_stage (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c))⟩)
    (run_seq scopedRefs_eq scopedSems_eq defs main (fun _ => ops) main_eq (fun _ => ops_sub) m ρ
      (hfresh := fun _ op hop => (List.forall_iff_forall_mem.mp ops_fresh) op hop))

end Cert.ReferenceIdeal.RunS

end
-- ==== Proof.lean ====
/-
  The certificate of one message-passing layer: a Pallas implementation (two gridded kernels, the gather and the
  segment sum left to the host) against its plain jnp reference, over the extended reals.

  Statement. Under the precondition — every float input finite, and every source index of edge_index (its row 0)
  a row number of node_features, 0 ≤ src < 100000 — the word-level kernel program, its idealization and the
  idealized reference all run to completion leaving their arguments unchanged, and the two idealized programs, run
  from memories that agree on the arguments, end with equal results, element by element.

  Why the index conjunct is there. The kernel takes the source rows with jnp.take, which answers a row of NaN for an
  index outside [0, 100000); the reference indexes node_features[src], which clamps. Where an index is out of range
  the two results differ (the NaN row reads as the junk value −∞ at the ideal instance and reaches the layer
  normalisation, whose rsqrt of +∞ is 0), so the claim is false without the conjunct; under it both read the same row.
  The destination row of edge_index needs no condition: both programs sum the messages with the same scatter of the
  same index column.

  How it goes. The frames of the two kernel programs are generated. The reference's run is read stage by stage. The
  kernel program's run is the generated frame's launch with the result buffer kept in the post; each region's output
  array is one function of the arrays it finds at entry (a row map: output row r depends on row r of the row operands
  and on the whole weights), the host stretches between the regions are read back to the launch memory, and the two
  sides meet row by row: the same perceptrons, the reference multiplying a concatenated row by a whole weight matrix
  where the kernel multiplies the two parts by the matrix's upper and lower rows and adds — a finite sum split in two.
  No step uses finiteness of the float inputs.
-/
import proofs.«429976_j35399120454035_2_alg».proof.Defs
import proofs.«429976_j35399120454035_2_alg».proof.Proof.Gen.Kernel
import proofs.«429976_j35399120454035_2_alg».proof.Proof.Gen.Kernel.Skeleton
import proofs.«429976_j35399120454035_2_alg».proof.Proof.Gen.Kernel.Launch
import proofs.«429976_j35399120454035_2_alg».proof.Proof.Gen.Kernel.Points
import proofs.«429976_j35399120454035_2_alg».proof.Proof.Gen.Kernel.Frame
import proofs.«429976_j35399120454035_2_alg».proof.Proof.Gen.KernelIdeal
import proofs.«429976_j35399120454035_2_alg».proof.Proof.Gen.KernelIdeal.Skeleton
import proofs.«429976_j35399120454035_2_alg».proof.Proof.Gen.KernelIdeal.Launch
import proofs.«429976_j35399120454035_2_alg».proof.Proof.Gen.KernelIdeal.Points
import proofs.«429976_j35399120454035_2_alg».proof.Proof.Gen.KernelIdeal.Frame
import proofs.«429976_j35399120454035_2_alg».proof.Proof.Gen.ReferenceIdeal
import proofs.«429976_j35399120454035_2_alg».proof.Proof.Gen.Pre_finite_inputs
import proofs.«429976_j35399120454035_2_alg».proof.Proof.KernelRun
import proofs.«429976_j35399120454035_2_alg».proof.Proof.Bridge
import proofs.«429976_j35399120454035_2_alg».proof.Proof.RefRunS
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.RunS.run (F := Ideal) m ρ)

/-- The two idealized programs end with equal results: the kernel program's result buffer ends at the last segment
    boundary's contents, the reference's at its last stage, and the two are one array. -/
theorem algebraic : Cert.algebraic_KernelIdeal_ReferenceIdeal := by
  intro m ρ m' ρ' hpre hagree
  refine ⟨fun c => Cert.KernelIdeal.Gen.W6 m ρ c (Proc.devRef .tc Cert.KernelIdeal.main_v20),
    Cert.KernelIdeal.GenRun.run_main (F := Ideal) m ρ, ?_⟩
  refine (θ_run Cert.ReferenceIdeal.defs _ _).mono (fun _ h c => ⟨(h c).1.trans ?_, (h c).2⟩)
    (Cert.ReferenceIdeal.RunS.run (F := Ideal) m' ρ')
  exact Cert.Bridge.result_eq m ρ c hpre (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
    (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
